-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S3200000 : Shape := ⟨1, ![3200000]⟩
abbrev S1433x40 : Shape := ⟨2, ![1433, 40]⟩
abbrev S40 : Shape := ⟨1, ![40]⟩
abbrev S40x7 : Shape := ⟨2, ![40, 7]⟩
abbrev S7 : Shape := ⟨1, ![7]⟩
abbrev S100000x40 : Shape := ⟨2, ![100000, 40]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S1433x40 : S_.BroadcastsInDim S1433x40 (![] : Fin 0 → Fin S1433x40.rank)
  reducesTo_S1433x40_S_d0_1 : S1433x40.ReducesTo [0, 1] S_
  bcast_S_S40 : S_.BroadcastsInDim S40 (![] : Fin 0 → Fin S40.rank)
  reducesTo_S40_S_d0 : S40.ReducesTo [0] S_
  bcast_S_S40x7 : S_.BroadcastsInDim S40x7 (![] : Fin 0 → Fin S40x7.rank)
  reducesTo_S40x7_S_d0_1 : S40x7.ReducesTo [0, 1] S_
  bcast_S_S7 : S_.BroadcastsInDim S7 (![] : Fin 0 → Fin S7.rank)
  reducesTo_S7_S_d0 : S7.ReducesTo [0] S_
  bcast_S_S100000x40 : S_.BroadcastsInDim S100000x40 (![] : Fin 0 → Fin S100000x40.rank)
  reducesTo_S100000x40_S_d0_1 : S100000x40.ReducesTo [0, 1] S_

variable [Facts]

def fn_part2 {F : FTy → Type} [FloatOps F] (main_arg1 : IVec S3200000 32) (main_v33 : IVec S_ 1) : IVec S_ 1 :=
  let main_c_12 : IVec S_ 32 := constantI S_ 32 4294867296#32
  let main_v34 : IVec S3200000 32 := broadcastInDim S3200000 ![] bcast_S_S3200000 main_c_12
  let main_v35 : IVec S3200000 1 := cmpi .sge main_arg1 main_v34
  let main_c_13 : IVec S_ 32 := constantI S_ 32 100000#32
  let main_v36 : IVec S3200000 32 := broadcastInDim S3200000 ![] bcast_S_S3200000 main_c_13
  let main_v37 : IVec S3200000 1 := cmpi .slt main_arg1 main_v36
  let main_v38 : IVec S3200000 1 := andi main_v35 main_v37
  let main_c_14 : IVec S_ 1 := constantI S_ 1 1#1
  let main_v39 : IVec S_ 1 := (fun x v => Host.reduce IntOp.andi x v reducesTo_S3200000_S_d0 h_S_) main_v38 main_c_14
  let main_v40 : IVec S_ 1 := andi main_v33 main_v39
  main_v40

def fn_part1 {F : FTy → Type} [FloatOps F] (main_arg1 : IVec S3200000 32) (main_arg6 : FVec F S40x7 .f32) (main_arg7 : FVec F S7 .f32) (main_arg8 : FVec F S100000x40 .f32) (main_v13 : IVec S_ 1) (main_v16 : IVec S40 1) : IVec S_ 1 :=
  let main_c_5 : IVec S_ 1 := constantI S_ 1 1#1
  let main_v17 : IVec S_ 1 := (fun x v => Host.reduce IntOp.andi x v reducesTo_S40_S_d0 h_S_) main_v16 main_c_5
  let main_v18 : IVec S_ 1 := andi main_v13 main_v17
  let main_v19 : FVec F S40x7 .f32 := Host.absf main_arg6
  let main_cst_6 : FVec F S_ .f32 := constant S_ .f32 0x7F800000#32
  let main_v20 : FVec F S40x7 .f32 := broadcastInDim S40x7 ![] bcast_S_S40x7 main_cst_6
  let main_v21 : IVec S40x7 1 := cmpf .olt main_v19 main_v20
  let main_c_7 : IVec S_ 1 := constantI S_ 1 1#1
  let main_v22 : IVec S_ 1 := (fun x v => Host.reduce IntOp.andi x v reducesTo_S40x7_S_d0_1 h_S_) main_v21 main_c_7
  let main_v23 : IVec S_ 1 := andi main_v18 main_v22
  let main_v24 : FVec F S7 .f32 := Host.absf main_arg7
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  let main_v29 : FVec F S100000x40 .f32 := Host.absf main_arg8
  let main_cst_10 : FVec F S_ .f32 := constant S_ .f32 0x7F800000#32
  let main_v30 : FVec F S100000x40 .f32 := broadcastInDim S100000x40 ![] bcast_S_S100000x40 main_cst_10
  let main_v31 : IVec S100000x40 1 := cmpf .olt main_v29 main_v30
  let main_c_11 : IVec S_ 1 := constantI S_ 1 1#1
  let main_v32 : IVec S_ 1 := (fun x v => Host.reduce IntOp.andi x v reducesTo_S100000x40_S_d0_1 h_S_) main_v31 main_c_11
  let main_v33 : IVec S_ 1 := andi main_v28 main_v32
  fn_part2 (F := F) main_arg1 main_v33

def fn {F : FTy → Type} [FloatOps F] (main_arg0 : FVec F S100000x1433 .f32) (main_arg1 : IVec S3200000 32) (main_arg2 : IVec S3200000 32) (main_arg3 : FVec F S3200000 .f32) (main_arg4 : FVec F S1433x40 .f32) (main_arg5 : FVec F S40 .f32) (main_arg6 : FVec F S40x7 .f32) (main_arg7 : FVec F S7 .f32) (main_arg8 : FVec F S100000x40 .f32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S1433x40 .f32 := Host.absf main_arg4
  let main_cst_2 : FVec F S_ .f32 := constant S_ .f32 0x7F800000#32
  let main_v10 : FVec F S1433x40 .f32 := broadcastInDim S1433x40 ![] bcast_S_S1433x40 main_cst_2
  let main_v11 : IVec S1433x40 1 := cmpf .olt main_v9 main_v10
  let main_c_3 : IVec S_ 1 := constantI S_ 1 1#1
  let main_v12 : IVec S_ 1 := (fun x v => Host.reduce IntOp.andi x v reducesTo_S1433x40_S_d0_1 h_S_) main_v11 main_c_3
  let main_v13 : IVec S_ 1 := andi main_v8 main_v12
  let main_v14 : FVec F S40 .f32 := Host.absf main_arg5
  let main_cst_4 : FVec F S_ .f32 := constant S_ .f32 0x7F800000#32
  let main_v15 : FVec F S40 .f32 := broadcastInDim S40 ![] bcast_S_S40 main_cst_4
  let main_v16 : IVec S40 1 := cmpf .olt main_v14 main_v15
  fn_part1 (F := F) main_arg1 main_arg6 main_arg7 main_arg8 main_v13 main_v16
-- ==== Kernel.lean ====
abbrev S100000x1433 : Shape := ⟨2, ![100000, 1433]⟩
abbrev S3200000 : Shape := ⟨1, ![3200000]⟩
abbrev S1433x40 : Shape := ⟨2, ![1433, 40]⟩
abbrev S40 : Shape := ⟨1, ![40]⟩
abbrev S40x7 : Shape := ⟨2, ![40, 7]⟩
abbrev S7 : Shape := ⟨1, ![7]⟩
abbrev S100000x40 : Shape := ⟨2, ![100000, 40]⟩
abbrev S2000x1433 : Shape := ⟨2, ![2000, 1433]⟩
abbrev S2000x40 : Shape := ⟨2, ![2000, 40]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S3200000x40 : Shape := ⟨2, ![3200000, 40]⟩
abbrev S100000x7 : Shape := ⟨2, ![100000, 7]⟩
abbrev S2000x7 : Shape := ⟨2, ![2000, 7]⟩
abbrev S1x40 : Shape := ⟨2, ![1, 40]⟩
abbrev S3200000x7 : Shape := ⟨2, ![3200000, 7]⟩
abbrev S1x7 : Shape := ⟨2, ![1, 7]⟩
abbrev S2000 : Shape := ⟨1, ![2000]⟩
abbrev S2000x1 : Shape := ⟨2, ![2000, 1]⟩

abbrev nBuf : Space → Nat
  | .hbm => 72
  | .vmem => 18
  | .smem => 0
  | _ => 0

abbrev bufTy : (tb : Table) → Fin (tcTables nBuf tb) → BufTy
  | .hbm, ⟨0, _⟩ => ⟨S100000x1433, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S1433x40, .f32⟩
  | .hbm, ⟨5, _⟩ => ⟨S40, .f32⟩
  | .hbm, ⟨6, _⟩ => ⟨S40x7, .f32⟩
  | .hbm, ⟨7, _⟩ => ⟨S7, .f32⟩
  | .hbm, ⟨8, _⟩ => ⟨S100000x40, .f32⟩
  | .hbm, ⟨9, _⟩ => ⟨S100000x40, .f32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S1, .i32⟩
  | .hbm, ⟨19, _⟩ => ⟨S_, .i32⟩
  | .hbm, ⟨20, _⟩ => ⟨S3200000x1, .i32⟩
  | .hbm, ⟨21, _⟩ => ⟨S3200000x1, .i1⟩
  | .hbm, ⟨22, _⟩ => ⟨S1x1, .i32⟩
  | .hbm, ⟨23, _⟩ => ⟨S3200000x1, .i32⟩
  | .hbm, ⟨24, _⟩ => ⟨S3200000x1, .i1⟩
  | .hbm, ⟨25, _⟩ => ⟨S3200000x1, .i1⟩
  | .hbm, ⟨26, _⟩ => ⟨S_, .i1⟩
  | .hbm, ⟨27, _⟩ => ⟨S3200000, .i1⟩
  | .hbm, ⟨28, _⟩ => ⟨S3200000x40, .f32⟩
  | .hbm, ⟨29, _⟩ => ⟨S3200000x40, .i1⟩
  | .hbm, ⟨30, _⟩ => ⟨S_, .f32⟩
  | .hbm, ⟨31, _⟩ => ⟨S3200000x40, .f32⟩
  | .hbm, ⟨32, _⟩ => ⟨S3200000x40, .f32⟩
  | .hbm, ⟨33, _⟩ => ⟨S3200000x1, .f32⟩
  | .hbm, ⟨34, _⟩ => ⟨S3200000x40, .f32⟩
  | .hbm, ⟨35, _⟩ => ⟨S3200000x40, .f32⟩
  | .hbm, ⟨36, _⟩ => ⟨S_, .f32⟩
  | .hbm, ⟨37, _⟩ => ⟨S100000x40, .f32⟩
  | .hbm, ⟨38, _⟩ => ⟨S3200000x1, .i32⟩
  | .hbm, ⟨39, _⟩ => ⟨S100000x40, .f32⟩
  | .hbm, ⟨40, _⟩ => ⟨S100000x7, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S1, .i32⟩
  | .hbm, ⟨50, _⟩ => ⟨S_, .i32⟩
  | .hbm, ⟨51, _⟩ => ⟨S3200000x1, .i32⟩
  | .hbm, ⟨52, _⟩ => ⟨S3200000x1, .i1⟩
  | .hbm, ⟨53, _⟩ => ⟨S1x1, .i32⟩
  | .hbm, ⟨54, _⟩ => ⟨S3200000x1, .i32⟩
  | .hbm, ⟨55, _⟩ => ⟨S3200000x1, .i1⟩
  | .hbm, ⟨56, _⟩ => ⟨S3200000x1, .i1⟩
  | .hbm, ⟨57, _⟩ => ⟨S_, .i1⟩
  | .hbm, ⟨58, _⟩ => ⟨S3200000, .i1⟩
  | .hbm, ⟨59, _⟩ => ⟨S3200000x7, .f32⟩
  | .hbm, ⟨60, _⟩ => ⟨S3200000x7, .i1⟩
  | .hbm, ⟨61, _⟩ => ⟨S_, .f32⟩
  | .hbm, ⟨62, _⟩ => ⟨S3200000x7, .f32⟩
  | .hbm, ⟨63, _⟩ => ⟨S3200000x7, .f32⟩
  | .hbm, ⟨64, _⟩ => ⟨S3200000x1, .f32⟩
  | .hbm, ⟨65, _⟩ => ⟨S3200000x7, .f32⟩
  | .hbm, ⟨66, _⟩ => ⟨S3200000x7, .f32⟩
  | .hbm, ⟨67, _⟩ => ⟨S_, .f32⟩
  | .hbm, ⟨68, _⟩ => ⟨S100000x7, .f32⟩
  | .hbm, ⟨69, _⟩ => ⟨S3200000x1, .i32⟩
  | .hbm, ⟨70, _⟩ => ⟨S100000x7, .f32⟩
  | .hbm, ⟨71, _⟩ => ⟨S100000x7, .f32⟩
  | .local _ .vmem, ⟨0, _⟩ => ⟨S2000x1433, .f32⟩
  | .local _ .vmem, ⟨1, _⟩ => ⟨S2000x1433, .f32⟩
  | .local _ .vmem, ⟨2, _⟩ => ⟨S1433x40, .f32⟩
  | .local _ .vmem, ⟨3, _⟩ => ⟨S2000x40, .f32⟩
  | .local _ .vmem, ⟨4, _⟩ => ⟨S2000x40, .f32⟩
  | .local _ .vmem, ⟨5, _⟩ => ⟨S2000x40, .f32⟩
  | .local _ .vmem, ⟨6, _⟩ => ⟨S2000x40, .f32⟩
  | .local _ .vmem, ⟨7, _⟩ => ⟨S40, .f32⟩
  | .local _ .vmem, ⟨8, _⟩ => ⟨S2000x40, .f32⟩
  | .local _ .vmem, ⟨9, _⟩ => ⟨S2000x40, .f32⟩
  | .local _ .vmem, ⟨10, _⟩ => ⟨S40x7, .f32⟩
  | .local _ .vmem, ⟨11, _⟩ => ⟨S2000x7, .f32⟩
  | .local _ .vmem, ⟨12, _⟩ => ⟨S2000x7, .f32⟩
  | .local _ .vmem, ⟨13, _⟩ => ⟨S2000x7, .f32⟩
  | .local _ .vmem, ⟨14, _⟩ => ⟨S2000x7, .f32⟩
  | .local _ .vmem, ⟨15, _⟩ => ⟨S7, .f32⟩
  | .local _ .vmem, ⟨16, _⟩ => ⟨S2000x7, .f32⟩
  | .local _ .vmem, ⟨17, _⟩ => ⟨S2000x7, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_cst : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_cst_0 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x40 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S40x7 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x7 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x7 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S2000x1433_S2000x1433_0_0 : ∀ a, (![0, 0] : Fin 2 → Nat) a + S2000x1433.size a ≤ S2000x1433.size a
  h_S2000x1433 : 0 < S2000x1433.numel
  bitsLt_bf16_f32 : FTy.bits .bf16 < FTy.bits .f32
  inb_S1433x40_S1433x40_0_0 : ∀ a, (![0, 0] : Fin 2 → Nat) a + S1433x40.size a ≤ S1433x40.size a
  h_S1433x40 : 0 < S1433x40.numel
  inb_S2000x40_S2000x40_0_0 : ∀ a, (![0, 0] : Fin 2 → Nat) a + S2000x40.size a ≤ S2000x40.size a
  h_S2000x40 : 0 < S2000x40.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x40_0 : S3200000.BroadcastsInDim S3200000x40 (![0] : Fin 1 → Fin S3200000x40.rank)
  bcast_S_S3200000x40 : S_.BroadcastsInDim S3200000x40 (![] : Fin 0 → Fin S3200000x40.rank)
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  shapeCasts_S2000x40_S2000x40 : S2000x40.ShapeCasts S2000x40
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  natLt_1_32 : 1 < 32
  inb_S40x7_S40x7_0_0 : ∀ a, (![0, 0] : Fin 2 → Nat) a + S40x7.size a ≤ S40x7.size a
  h_S40x7 : 0 < S40x7.numel
  inb_S2000x7_S2000x7_0_0 : ∀ a, (![0, 0] : Fin 2 → Nat) a + S2000x7.size a ≤ S2000x7.size a
  h_S2000x7 : 0 < S2000x7.numel
  bcast_S3200000_S3200000x7_0 : S3200000.BroadcastsInDim S3200000x7 (![0] : Fin 1 → Fin S3200000x7.rank)
  bcast_S_S3200000x7 : S_.BroadcastsInDim S3200000x7 (![] : Fin 0 → Fin S3200000x7.rank)
  bcast_S3200000x1_S3200000x7_0_1 : S3200000x1.BroadcastsInDim S3200000x7 (![0, 1] : Fin 2 → Fin S3200000x7.rank)
  bcast_S_S100000x7 : S_.BroadcastsInDim S100000x7 (![] : Fin 0 → Fin S100000x7.rank)
  shapeCasts_S2000x7_S2000x7 : S2000x7.ShapeCasts S2000x7
  inb_S7_S7_0 : ∀ a, (![0] : Fin 1 → Nat) a + S7.size a ≤ S7.size a
  h_S7 : 0 < S7.numel
  shapeCasts_S7_S1x7 : S7.ShapeCasts S1x7
  broadcasts_S1x7_S2000x7 : S1x7.Broadcasts S2000x7
  reduces_S2000x7_S2000 : S2000x7.Reduces [1] S2000
  shapeCasts_S2000_S2000x1 : S2000.ShapeCasts S2000x1
  broadcasts_S2000x1_S2000x7 : S2000x1.Broadcasts S2000x7
  dot_S2000x1433_S1433x40_S2000x40_1_0_0_1_n_n_wf : DotDims.WF S2000x1433 S1433x40 S2000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  dot_S2000x40_S40x7_S2000x7_1_0_0_1_n_n_wf : DotDims.WF S2000x40 S40x7 S2000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S100000x1433.size a
  hwx0_0 : ∀ i : grid0.Coords, EltTy.bits .f32 = 32 ∨ (Rect.block (s := S100000x1433) S2000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x40.size a ≤ S1433x40.size a
  hwx0_1 : ∀ i : grid0.Coords, EltTy.bits .f32 = 32 ∨ (Rect.block (s := S1433x40) S1433x40.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x40.size a ≤ S100000x40.size a
  hwx0_2 : ∀ i : grid0.Coords, EltTy.bits .f32 = 32 ∨ (Rect.block (s := S100000x40) S2000x40.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x40.size a ≤ S100000x40.size a
  hwx1_0 : ∀ i : grid1.Coords, EltTy.bits .f32 = 32 ∨ (Rect.block (s := S100000x40) S2000x40.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S40.size a ≤ S40.size a
  hwx1_1 : ∀ i : grid1.Coords, EltTy.bits .f32 = 32 ∨ (Rect.block (s := S40) S40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x40.size a ≤ S100000x40.size a
  hwx1_2 : ∀ i : grid1.Coords, EltTy.bits .f32 = 32 ∨ (Rect.block (s := S100000x40) S2000x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S40x7.size a ≤ S40x7.size a
  hwx1_3 : ∀ i : grid1.Coords, EltTy.bits .f32 = 32 ∨ (Rect.block (s := S40x7) S40x7.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x7.size a ≤ S100000x7.size a
  hwx1_4 : ∀ i : grid1.Coords, EltTy.bits .f32 = 32 ∨ (Rect.block (s := S100000x7) S2000x7.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x7.size a ≤ S100000x7.size a
  hwx2_0 : ∀ i : grid2.Coords, EltTy.bits .f32 = 32 ∨ (Rect.block (s := S100000x7) S2000x7.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S7.size a ≤ S7.size a
  hwx2_1 : ∀ i : grid2.Coords, EltTy.bits .f32 = 32 ∨ (Rect.block (s := S7) S7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x7.size a ≤ S100000x7.size a
  hwx2_2 : ∀ i : grid2.Coords, EltTy.bits .f32 = 32 ∨ (Rect.block (s := S100000x7) S2000x7.size (cc2_transform_2 i) (hinb2_2 i)).WholeWords (EltTy.packing .f32)

variable [Facts₀]

def dot_S2000x1433_S1433x40_S2000x40_1_0_0_1_n_n : DotDims S2000x1433 S1433x40 S2000x40 where
  lhsContracting := [1]
  rhsContracting := [0]
  lhsNonContracting := [0]
  rhsNonContracting := [1]
  lhsBatch := []
  rhsBatch := []
  wf := dot_S2000x1433_S1433x40_S2000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf
def dot_S2000x40_S40x7_S2000x7_1_0_0_1_n_n : DotDims S2000x40 S40x7 S2000x7 where
  lhsContracting := [1]
  rhsContracting := [0]
  lhsNonContracting := [0]
  rhsNonContracting := [1]
  lhsBatch := []
  rhsBatch := []
  wf := dot_S2000x40_S40x7_S2000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1433x40.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x40.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S2000x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S2000x40.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S40x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S2000x7.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v15) S2000x7.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x1433 : Shape := ⟨2, ![100000, 1433]⟩
abbrev S3200000 : Shape := ⟨1, ![3200000]⟩
abbrev S1433x40 : Shape := ⟨2, ![1433, 40]⟩
abbrev S40 : Shape := ⟨1, ![40]⟩
abbrev S40x7 : Shape := ⟨2, ![40, 7]⟩
abbrev S7 : Shape := ⟨1, ![7]⟩
abbrev S100000x40 : Shape := ⟨2, ![100000, 40]⟩
abbrev S_ : Shape := ⟨0, ![]⟩
abbrev S3200000x1 : Shape := ⟨2, ![3200000, 1]⟩
abbrev S3200000x40 : Shape := ⟨2, ![3200000, 40]⟩
abbrev S1x40 : Shape := ⟨2, ![1, 40]⟩
abbrev S100000x7 : Shape := ⟨2, ![100000, 7]⟩
abbrev S3200000x7 : Shape := ⟨2, ![3200000, 7]⟩
abbrev S1x7 : Shape := ⟨2, ![1, 7]⟩
abbrev S100000 : Shape := ⟨1, ![100000]⟩
abbrev S100000x1 : Shape := ⟨2, ![100000, 1]⟩

abbrev nBuf : Space → Nat
  | .hbm => 75
  | .vmem => 0
  | .smem => 0
  | _ => 0

abbrev bufTy : (tb : Table) → Fin (tcTables nBuf tb) → BufTy
  | .hbm, ⟨0, _⟩ => ⟨S100000x1433, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S1433x40, .f32⟩
  | .hbm, ⟨5, _⟩ => ⟨S40, .f32⟩
  | .hbm, ⟨6, _⟩ => ⟨S40x7, .f32⟩
  | .hbm, ⟨7, _⟩ => ⟨S7, .f32⟩
  | .hbm, ⟨8, _⟩ => ⟨S100000x40, .f32⟩
  | .hbm, ⟨9, _⟩ => ⟨S100000x40, .f32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x40, .f32⟩
  | .hbm, ⟨19, _⟩ => ⟨S3200000x1, .f32⟩
  | .hbm, ⟨20, _⟩ => ⟨S3200000x40, .f32⟩
  | .hbm, ⟨21, _⟩ => ⟨S3200000x40, .f32⟩
  | .hbm, ⟨22, _⟩ => ⟨S_, .f32⟩
  | .hbm, ⟨23, _⟩ => ⟨S100000x40, .f32⟩
  | .hbm, ⟨24, _⟩ => ⟨S3200000x1, .i32⟩
  | .hbm, ⟨25, _⟩ => ⟨S100000x40, .f32⟩
  | .hbm, ⟨26, _⟩ => ⟨S1x40, .f32⟩
  | .hbm, ⟨27, _⟩ => ⟨S100000x40, .f32⟩
  | .hbm, ⟨28, _⟩ => ⟨S100000x40, .f32⟩
  | .hbm, ⟨29, _⟩ => ⟨S_, .f32⟩
  | .hbm, ⟨30, _⟩ => ⟨S100000x40, .f32⟩
  | .hbm, ⟨31, _⟩ => ⟨S100000x40, .f32⟩
  | .hbm, ⟨32, _⟩ => ⟨S_, .f32⟩
  | .hbm, ⟨33, _⟩ => ⟨S100000x40, .f32⟩
  | .hbm, ⟨34, _⟩ => ⟨S100000x40, .i1⟩
  | .hbm, ⟨35, _⟩ => ⟨S100000x40, .f32⟩
  | .hbm, ⟨36, _⟩ => ⟨S_, .f32⟩
  | .hbm, ⟨37, _⟩ => ⟨S100000x40, .f32⟩
  | .hbm, ⟨38, _⟩ => ⟨S100000x40, .f32⟩
  | .hbm, ⟨39, _⟩ => ⟨S100000x40, .f32⟩
  | .hbm, ⟨40, _⟩ => ⟨S100000x7, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x7, .f32⟩
  | .hbm, ⟨50, _⟩ => ⟨S3200000x1, .f32⟩
  | .hbm, ⟨51, _⟩ => ⟨S3200000x7, .f32⟩
  | .hbm, ⟨52, _⟩ => ⟨S3200000x7, .f32⟩
  | .hbm, ⟨53, _⟩ => ⟨S_, .f32⟩
  | .hbm, ⟨54, _⟩ => ⟨S100000x7, .f32⟩
  | .hbm, ⟨55, _⟩ => ⟨S3200000x1, .i32⟩
  | .hbm, ⟨56, _⟩ => ⟨S100000x7, .f32⟩
  | .hbm, ⟨57, _⟩ => ⟨S1x7, .f32⟩
  | .hbm, ⟨58, _⟩ => ⟨S100000x7, .f32⟩
  | .hbm, ⟨59, _⟩ => ⟨S100000x7, .f32⟩
  | .hbm, ⟨60, _⟩ => ⟨S_, .f32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x7, .f32⟩
  | .hbm, ⟨67, _⟩ => ⟨S100000x7, .f32⟩
  | .hbm, ⟨68, _⟩ => ⟨S100000x7, .f32⟩
  | .hbm, ⟨69, _⟩ => ⟨S_, .f32⟩
  | .hbm, ⟨70, _⟩ => ⟨S100000, .f32⟩
  | .hbm, ⟨71, _⟩ => ⟨S100000x1, .f32⟩
  | .hbm, ⟨72, _⟩ => ⟨S100000x1, .f32⟩
  | .hbm, ⟨73, _⟩ => ⟨S100000x7, .f32⟩
  | .hbm, ⟨74, _⟩ => ⟨S100000x7, .f32⟩
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_cst : Ref sig .tc := ⟨.hbm, 60, rfl⟩
abbrev main_call1_v0 : Ref sig .tc := ⟨.hbm, 61, rfl⟩
abbrev main_call1_cst_0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_cst_1 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_v41 : Ref sig .tc := ⟨.hbm, 74, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S3200000x1_S3200000x7_0_1 : S3200000x1.BroadcastsInDim S3200000x7 (![0, 1] : Fin 2 → Fin S3200000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  dot_S100000x1433_S1433x40_S100000x40_1_0_0_1_n_n_wf : DotDims.WF S100000x1433 S1433x40 S100000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  dot_S100000x40_S40x7_S100000x7_1_0_0_1_n_n_wf : DotDims.WF S100000x40 S40x7 S100000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1

variable [Facts₀]

def dot_S100000x1433_S1433x40_S100000x40_1_0_0_1_n_n : DotDims S100000x1433 S1433x40 S100000x40 where
  lhsContracting := [1]
  rhsContracting := [0]
  lhsNonContracting := [0]
  rhsNonContracting := [1]
  lhsBatch := []
  rhsBatch := []
  wf := dot_S100000x1433_S1433x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf
def dot_S100000x40_S40x7_S100000x7_1_0_0_1_n_n : DotDims S100000x40 S40x7 S100000x7 where
  lhsContracting := [1]
  rhsContracting := [0]
  lhsNonContracting := [0]
  rhsNonContracting := [1]
  lhsBatch := []
  rhsBatch := []
  wf := dot_S100000x40_S40x7_S100000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

class Facts : Prop extends Facts₀ where

variable [Facts]
-- ==== Proof.Spec.lean ====
/-
  What both programs compute, index by index over the extended reals.

  A two-layer graph convolution over 100000 nodes: a dense product of the node features with the first
  weight matrix; an edge aggregation (gather a row per edge, scale it by the edge's weight, add it into the
  edge's destination row); a bias, a rectifier and a dropout keep factor; a second dense product; the same
  aggregation; a bias and a row-wise log-softmax over the seven classes.

  The aggregation is one and the same function in both programs and is never opened. Stated here are the three
  dense stages, each entry as a function of the whole arrays:
    dense1 x w (r, j)     = sum over the 1433 features k of x (r, k) * w (k, j)
    hidden a b u (r, k)   = max (a (r, k) + b k) 0 * keep (u (r, k))
    dense2 h w (r, j)     = sum over the 40 hidden units k of h (r, k) * w (k, j)
    lsm a b (r, j)        = s j - log (sum over the classes j' of exp (s j')),
                            where l j = a (r, j) + b j and s j = l j - max over the classes of l.
  The keep factor of a uniform draw u is 2 where u exceeds one half and 0 elsewhere: one program multiplies the
  comparison's bit by 2, the other divides it by one half.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The row coordinate of a rank-2 index, as a number below the first extent. -/
abbrev row {n0 n1 : Nat} (i : (⟨2, ![n0, n1]⟩ : Shape).Idx) : Fin n0 := ⟨(i 0).val, idx2_lt0 i⟩
/-- The column coordinate of a rank-2 index, as a number below the second extent. -/
abbrev col {n0 n1 : Nat} (i : (⟨2, ![n0, n1]⟩ : Shape).Idx) : Fin n1 := ⟨(i 1).val, idx2_lt1 i⟩

/-- The first layer's dense product. -/
def dense1 (x : FVec Ideal ⟨2, ![100000, 1433]⟩ .f32) (w : FVec Ideal ⟨2, ![1433, 40]⟩ .f32) :
    FVec Ideal ⟨2, ![100000, 40]⟩ .f32 :=
  fun i => ∑ k : Fin 1433, x (ix2 (row i) k) * w (ix2 k (col i))

/-- The comparison's bit of a uniform draw against one half, as a real: 1 where the draw is larger. -/
def keepBit (u : EReal) : EReal := (((Ideal.cmp .ogt u (Ideal.ofBits .f32 0x3F000000#32)).toNat : ℝ) : EReal)

/-- The dropout keep factor: the bit, scaled by 2. -/
def keep (u : EReal) : EReal := keepBit u * ((2 : ℝ) : EReal)

/-- Bias, rectifier and dropout on the aggregated first layer. -/
def hidden (a : FVec Ideal ⟨2, ![100000, 40]⟩ .f32) (b : FVec Ideal ⟨1, ![40]⟩ .f32)
    (u : FVec Ideal ⟨2, ![100000, 40]⟩ .f32) : FVec Ideal ⟨2, ![100000, 40]⟩ .f32 :=
  fun i => max (a i + b (ix1 (col i))) (Ideal.ofBits .f32 0x00000000#32) * keep (u i)

/-- The second layer's dense product. -/
def dense2 (h : FVec Ideal ⟨2, ![100000, 40]⟩ .f32) (w : FVec Ideal ⟨2, ![40, 7]⟩ .f32) :
    FVec Ideal ⟨2, ![100000, 7]⟩ .f32 :=
  fun i => ∑ k : Fin 40, h (ix2 (row i) k) * w (ix2 k (col i))

/-- A node's seven logits: its aggregated second-layer row plus the bias. -/
def logits (a : FVec Ideal ⟨2, ![100000, 7]⟩ .f32) (b : FVec Ideal ⟨1, ![7]⟩ .f32) (r : Fin 100000) : Fin 7 → EReal :=
  fun j => a (ix2 r j) + b (ix1 j)

/-- The largest of seven values, folded from minus infinity. -/
def rowMax (l : Fin 7 → EReal) : EReal :=
  (Finset.univ : Finset (Fin 7)).fold max (Ideal.ofBits .f32 0xFF800000#32) l

/-- The row-wise log-softmax of the biased second-layer aggregate. -/
def lsm (a : FVec Ideal ⟨2, ![100000, 7]⟩ .f32) (b : FVec Ideal ⟨1, ![7]⟩ .f32) : FVec Ideal ⟨2, ![100000, 7]⟩ .f32 :=
  fun i =>
    (logits a b (row i) (col i) - rowMax (logits a b (row i)))
      - Ideal.log (∑ j : Fin 7, Ideal.exp (logits a b (row i) j - rowMax (logits a b (row i))))

/-! ## The two literals of the keep factor -/

/-- The word `0x40000000` is the real 2. -/
theorem ofBits_two : Ideal.ofBits .f32 0x40000000#32 = ((2 : ℝ) : EReal) := by
  simp [Ideal.ofBits, Ideal.ieee, -EReal.coe_mul]; norm_num

/-- The word `0x3F000000` is the real one half. -/
theorem ofBits_half : Ideal.ofBits .f32 0x3F000000#32 = ((1 / 2 : ℝ) : EReal) := by
  simp [Ideal.ofBits, Ideal.ieee, -EReal.coe_mul]; norm_num

/-- Dividing by one half is multiplying by 2, on every extended real. -/
theorem div_half (x : EReal) : Ideal.div x (Ideal.ofBits .f32 0x3F000000#32) = x * ((2 : ℝ) : EReal) := by
  rw [ofBits_half, Ideal.div_coe (by norm_num : (1 / 2 : ℝ) ≠ 0)]
  norm_num

end Cert.Spec

end
-- ==== Proof.RefStages.lean ====
/-
  The reference program's stages are the specification's functions.

  The reference computes, on the host: a dot_general of the node features with the first weights; the edge
  aggregation (indices below zero wrapped by the row count, a gather of one row per edge, a product with the edge
  weight, a scatter-add into the destination rows of a zero array); bias, maximum with zero, product with the
  comparison bit of the uniform draws against one half DIVIDED by one half; a second dot_general; the same
  aggregation; bias; and a log-softmax spelled as: subtract the row maximum (a max-reduce from minus infinity,
  then a maximum with minus infinity again), exponentiate, sum-reduce from zero, logarithm, subtract.

  Index by index each dense stage is the specification's: a dot_general's entry is the sum over its one contracted
  axis; the keep factor divides by one half where the specification multiplies by 2; the maximum of minus infinity
  and a fold of maxima from minus infinity is that fold; a sum from zero is the sum.

  The whole result then needs no index: in the specification's composition each dense stage is replaced by the
  reference's spelling of it, and what is left is the reference's own term, the aggregations untouched.
-/
import proofs.«415233_j2680059592878_3_alg».proof.Proof.RefRun
import proofs.«415233_j2680059592878_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Stages

open Cert.ReferenceIdeal Cert.ReferenceIdeal.Gen
open Idealize.ShloMosaic Idealize.ShloMosaic.TcCoe Idealize.SL.Sem Idealize.ShloMosaic.ValueIdx

/-- The edge indices with the negative ones wrapped by the row count, as a column of start indices. -/
def wrapIdx (src : IVec S3200000 32) : IVec S3200000x1 32 :=
  broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src)

/-- The edge aggregation of a 40-column array: gather a row per edge, scale by the edge weight, add into the
    destination rows of zero. -/
def agg40 (s : FVec Ideal S100000x40 .f32) (src dst : IVec S3200000 32) (ew : FVec Ideal S3200000 .f32) : FVec Ideal S100000x40 .f32 :=
  Host.scatterAdd scatter_S100000x40_S3200000x1_S3200000x40_1_0_0_1 (broadcastInDim S100000x40 ![] bcast_S_S100000x40 (constant (F := Ideal) S_ .f32 0x00000000#32)) (broadcastInDim S3200000x1 ![0] bcast_S3200000_S3200000x1_0 dst) (mulf (Host.gather gather_S100000x40_S3200000x1_S3200000x40_1_0_n_n_0_1_140 s (wrapIdx src)) (broadcastInDim S3200000x40 ![0, 1] bcast_S3200000x1_S3200000x40_0_1 (broadcastInDim S3200000x1 ![0] bcast_S3200000_S3200000x1_0 ew)))

/-- The edge aggregation of a 7-column array. -/
def agg7 (s : FVec Ideal S100000x7 .f32) (src dst : IVec S3200000 32) (ew : FVec Ideal S3200000 .f32) : FVec Ideal S100000x7 .f32 :=
  Host.scatterAdd scatter_S100000x7_S3200000x1_S3200000x7_1_0_0_1 (broadcastInDim S100000x7 ![] bcast_S_S100000x7 (constant (F := Ideal) S_ .f32 0x00000000#32)) (broadcastInDim S3200000x1 ![0] bcast_S3200000_S3200000x1_0 dst) (mulf (Host.gather gather_S100000x7_S3200000x1_S3200000x7_1_0_n_n_0_1_17 s (wrapIdx src)) (broadcastInDim S3200000x7 ![0, 1] bcast_S3200000x1_S3200000x7_0_1 (broadcastInDim S3200000x1 ![0] bcast_S3200000_S3200000x1_0 ew)))

/-- The reference's shifted logits: each row minus its maximum, as the reference spells it. -/
def refShift (x : FVec Ideal S100000x7 .f32) : FVec Ideal S100000x7 .f32 :=
  subf x (broadcastInDim S100000x7 ![0, 1] bcast_S100000x1_S100000x7_0_1 (broadcastInDim S100000x1 ![0] bcast_S100000_S100000x1_0 (maximumf (broadcastInDim S100000 ![] bcast_S_S100000 (constant (F := Ideal) S_ .f32 0xFF800000#32)) (Host.reduce FloatOps.maximumf x (constant (F := Ideal) S_ .f32 0xFF800000#32) reducesTo_S100000x7_S100000_d1 h_S_))))

/-- The reference's log-softmax of a logits array, as the reference spells it. -/
def refLsm (x : FVec Ideal S100000x7 .f32) : FVec Ideal S100000x7 .f32 :=
  subf (refShift x) (broadcastInDim S100000x7 ![0, 1] bcast_S100000x1_S100000x7_0_1 (Host.log (broadcastInDim S100000x1 ![0] bcast_S100000_S100000x1_0 (Host.reduceAdd (Host.exp (refShift x)) (constant (F := Ideal) S_ .f32 0x00000000#32) reducesTo_S100000x7_S100000_d1 h_S_))))

/-! ## The operand indices of the two dot_generals

At output index `i` = (r, j) and contraction index `q` the left operand is read at (r, q) and the right at (q, j). -/

theorem lhs1_0 (i : S100000x40.Idx) (q : dot_S100000x1433_S1433x40_S100000x40_1_0_0_1_n_n.contr.Idx) :
    (dot_S100000x1433_S1433x40_S100000x40_1_0_0_1_n_n.lhsIdx i q 0).val = (i 0).val := by
  unfold DotDims.lhsIdx
  rw [dif_neg (show ¬(0 : Fin S100000x1433.rank) ∈ dot_S100000x1433_S1433x40_S100000x40_1_0_0_1_n_n.lhsBatch by decide),
    dif_pos (show (0 : Fin S100000x1433.rank) ∈ dot_S100000x1433_S1433x40_S100000x40_1_0_0_1_n_n.lhsNonContracting by decide)]
  rfl

theorem lhs1_1 (i : S100000x40.Idx) (q : dot_S100000x1433_S1433x40_S100000x40_1_0_0_1_n_n.contr.Idx) :
    (dot_S100000x1433_S1433x40_S100000x40_1_0_0_1_n_n.lhsIdx i q 1).val = (q ⟨0, by decide⟩).val :=
  dot_S100000x1433_S1433x40_S100000x40_1_0_0_1_n_n.lhsIdx_val_of_single rfl i q

theorem rhs1_0 (i : S100000x40.Idx) (q : dot_S100000x1433_S1433x40_S100000x40_1_0_0_1_n_n.contr.Idx) :
    (dot_S100000x1433_S1433x40_S100000x40_1_0_0_1_n_n.rhsIdx i q 0).val = (q ⟨0, by decide⟩).val :=
  dot_S100000x1433_S1433x40_S100000x40_1_0_0_1_n_n.rhsIdx_val_of_single rfl i q

theorem rhs1_1 (i : S100000x40.Idx) (q : dot_S100000x1433_S1433x40_S100000x40_1_0_0_1_n_n.contr.Idx) :
    (dot_S100000x1433_S1433x40_S100000x40_1_0_0_1_n_n.rhsIdx i q 1).val = (i 1).val := by
  unfold DotDims.rhsIdx
  rw [dif_neg (show ¬(1 : Fin S1433x40.rank) ∈ dot_S100000x1433_S1433x40_S100000x40_1_0_0_1_n_n.rhsBatch by decide),
    dif_pos (show (1 : Fin S1433x40.rank) ∈ dot_S100000x1433_S1433x40_S100000x40_1_0_0_1_n_n.rhsNonContracting by decide)]
  rfl

/-- The first dot_general is the first dense product. -/
theorem dense1_eq (x : FVec Ideal S100000x1433 .f32) (w : FVec Ideal S1433x40 .f32) :
    Host.dotGeneral dot_S100000x1433_S1433x40_S100000x40_1_0_0_1_n_n none x w = Cert.Spec.dense1 x w := by
  funext i
  simp only [Host.dotGeneral]
  rw [Ideal.dotGeneral_apply,
    ← Equiv.sum_comp (ValueIdx.contrEquiv1 dot_S100000x1433_S1433x40_S100000x40_1_0_0_1_n_n 1433 rfl rfl).symm]
  refine Finset.sum_congr rfl fun k _ => ?_
  have hk := ValueIdx.contrEquiv1_symm_val dot_S100000x1433_S1433x40_S100000x40_1_0_0_1_n_n 1433 rfl rfl k
  have el : dot_S100000x1433_S1433x40_S100000x40_1_0_0_1_n_n.lhsIdx i
      ((ValueIdx.contrEquiv1 dot_S100000x1433_S1433x40_S100000x40_1_0_0_1_n_n 1433 rfl rfl).symm k)
        = ix2 (Cert.Spec.row i) k :=
    funext fun a => Fin.ext (by
      match a with
      | ⟨0, _⟩ => exact lhs1_0 _ _
      | ⟨1, _⟩ => exact (lhs1_1 _ _).trans hk)
  have er : dot_S100000x1433_S1433x40_S100000x40_1_0_0_1_n_n.rhsIdx i
      ((ValueIdx.contrEquiv1 dot_S100000x1433_S1433x40_S100000x40_1_0_0_1_n_n 1433 rfl rfl).symm k)
        = ix2 k (Cert.Spec.col i) :=
    funext fun a => Fin.ext (by
      match a with
      | ⟨0, _⟩ => exact (rhs1_0 _ _).trans hk
      | ⟨1, _⟩ => exact rhs1_1 _ _)
  rw [el, er]

theorem lhs2_0 (i : S100000x7.Idx) (q : dot_S100000x40_S40x7_S100000x7_1_0_0_1_n_n.contr.Idx) :
    (dot_S100000x40_S40x7_S100000x7_1_0_0_1_n_n.lhsIdx i q 0).val = (i 0).val := by
  unfold DotDims.lhsIdx
  rw [dif_neg (show ¬(0 : Fin S100000x40.rank) ∈ dot_S100000x40_S40x7_S100000x7_1_0_0_1_n_n.lhsBatch by decide),
    dif_pos (show (0 : Fin S100000x40.rank) ∈ dot_S100000x40_S40x7_S100000x7_1_0_0_1_n_n.lhsNonContracting by decide)]
  rfl

theorem lhs2_1 (i : S100000x7.Idx) (q : dot_S100000x40_S40x7_S100000x7_1_0_0_1_n_n.contr.Idx) :
    (dot_S100000x40_S40x7_S100000x7_1_0_0_1_n_n.lhsIdx i q 1).val = (q ⟨0, by decide⟩).val :=
  dot_S100000x40_S40x7_S100000x7_1_0_0_1_n_n.lhsIdx_val_of_single rfl i q

theorem rhs2_0 (i : S100000x7.Idx) (q : dot_S100000x40_S40x7_S100000x7_1_0_0_1_n_n.contr.Idx) :
    (dot_S100000x40_S40x7_S100000x7_1_0_0_1_n_n.rhsIdx i q 0).val = (q ⟨0, by decide⟩).val :=
  dot_S100000x40_S40x7_S100000x7_1_0_0_1_n_n.rhsIdx_val_of_single rfl i q

theorem rhs2_1 (i : S100000x7.Idx) (q : dot_S100000x40_S40x7_S100000x7_1_0_0_1_n_n.contr.Idx) :
    (dot_S100000x40_S40x7_S100000x7_1_0_0_1_n_n.rhsIdx i q 1).val = (i 1).val := by
  unfold DotDims.rhsIdx
  rw [dif_neg (show ¬(1 : Fin S40x7.rank) ∈ dot_S100000x40_S40x7_S100000x7_1_0_0_1_n_n.rhsBatch by decide),
    dif_pos (show (1 : Fin S40x7.rank) ∈ dot_S100000x40_S40x7_S100000x7_1_0_0_1_n_n.rhsNonContracting by decide)]
  rfl

/-- The second dot_general is the second dense product. -/
theorem dense2_eq (h : FVec Ideal S100000x40 .f32) (w : FVec Ideal S40x7 .f32) :
    Host.dotGeneral dot_S100000x40_S40x7_S100000x7_1_0_0_1_n_n none h w = Cert.Spec.dense2 h w := by
  funext i
  simp only [Host.dotGeneral]
  rw [Ideal.dotGeneral_apply,
    ← Equiv.sum_comp (ValueIdx.contrEquiv1 dot_S100000x40_S40x7_S100000x7_1_0_0_1_n_n 40 rfl rfl).symm]
  refine Finset.sum_congr rfl fun k _ => ?_
  have hk := ValueIdx.contrEquiv1_symm_val dot_S100000x40_S40x7_S100000x7_1_0_0_1_n_n 40 rfl rfl k
  have el : dot_S100000x40_S40x7_S100000x7_1_0_0_1_n_n.lhsIdx i
      ((ValueIdx.contrEquiv1 dot_S100000x40_S40x7_S100000x7_1_0_0_1_n_n 40 rfl rfl).symm k)
        = ix2 (Cert.Spec.row i) k :=
    funext fun a => Fin.ext (by
      match a with
      | ⟨0, _⟩ => exact lhs2_0 _ _
      | ⟨1, _⟩ => exact (lhs2_1 _ _).trans hk)
  have er : dot_S100000x40_S40x7_S100000x7_1_0_0_1_n_n.rhsIdx i
      ((ValueIdx.contrEquiv1 dot_S100000x40_S40x7_S100000x7_1_0_0_1_n_n 40 rfl rfl).symm k)
        = ix2 k (Cert.Spec.col i) :=
    funext fun a => Fin.ext (by
      match a with
      | ⟨0, _⟩ => exact (rhs2_0 _ _).trans hk
      | ⟨1, _⟩ => exact rhs2_1 _ _)
  rw [el, er]

/-! ## Broadcasts read at an index -/

/-- A vector laid along the one row of a one-row matrix and then down every row reads the vector at the column. -/
theorem bcastRow_apply {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → EReal)
    (p : Fin m) (q : Fin n) :
    broadcastInDim ⟨2, ![m, n]⟩ ![0, 1] h2 (broadcastInDim ⟨2, ![1, n]⟩ ![1] h1 b) (ix2 p q) = b (ix1 q) := by
  have e1 := broadcastInDim_apply ![0, 1] h2 (broadcastInDim ⟨2, ![1, n]⟩ ![1] h1 b) (ix2 p q) (ix2 (0 : Fin 1) q) (by
    intro a
    match a with
    | ⟨0, _⟩ => rfl
    | ⟨1, _⟩ =>
      show q.val = if n = 1 then 0 else q.val
      split
      · have := q.isLt; omega
      · rfl)
  have e2 := broadcastInDim_apply ![1] h1 b (ix2 (0 : Fin 1) q) (ix1 q) (by
    intro a
    match a with
    | ⟨0, _⟩ =>
      show q.val = if n = 1 then 0 else q.val
      split
      · have := q.isLt; omega
      · rfl)
  exact e1.trans e2

/-- Bias, rectifier and keep factor, as the reference spells them, are the specification's hidden layer: at (r, k)
    both are `max (a (r, k) + b k) 0` times the comparison's bit, the one divided by one half, the other doubled. -/
theorem hidden_eq (a : FVec Ideal S100000x40 .f32) (b : FVec Ideal S40 .f32) (u : FVec Ideal S100000x40 .f32) :
    mulf (maximumf (addf a (broadcastInDim S100000x40 ![0, 1] bcast_S1x40_S100000x40_0_1 (broadcastInDim S1x40 ![1] bcast_S40_S1x40_1 b))) (broadcastInDim S100000x40 ![] bcast_S_S100000x40 (constant (F := Ideal) S_ .f32 0x00000000#32))) (Host.divf (uitofp (F := Ideal) .f32 (cmpf (F := Ideal) .ogt u (broadcastInDim S100000x40 ![] bcast_S_S100000x40 (constant (F := Ideal) S_ .f32 0x3F000000#32)))) (broadcastInDim S100000x40 ![] bcast_S_S100000x40 (constant (F := Ideal) S_ .f32 0x3F000000#32)))
      = Cert.Spec.hidden a b u := by
  funext j
  obtain ⟨p, q, rfl⟩ : ∃ (p : Fin 100000) (q : Fin 40), j = ix2 p q := ⟨j 0, j 1, eq_ix2 j⟩
  show max (a (ix2 p q) + broadcastInDim S100000x40 ![0, 1] bcast_S1x40_S100000x40_0_1 (broadcastInDim S1x40 ![1] bcast_S40_S1x40_1 b) (ix2 p q)) (Ideal.ofBits .f32 0x00000000#32)
      * Ideal.div ((((Ideal.cmp .ogt (u (ix2 p q)) (Ideal.ofBits .f32 0x3F000000#32)).toNat : ℝ) : EReal)) (Ideal.ofBits .f32 0x3F000000#32)
    = max (a (ix2 p q) + b (ix1 q)) (Ideal.ofBits .f32 0x00000000#32) * Cert.Spec.keep (u (ix2 p q))
  rw [bcastRow_apply, Cert.Spec.div_half]
  rfl

/-- Bias, rectifier, keep factor and the second dot_general are the second dense product of the hidden layer. -/
theorem layer2_eq (a : FVec Ideal S100000x40 .f32) (b : FVec Ideal S40 .f32) (u : FVec Ideal S100000x40 .f32) (w : FVec Ideal S40x7 .f32) :
    Host.dotGeneral dot_S100000x40_S40x7_S100000x7_1_0_0_1_n_n none (mulf (maximumf (addf a (broadcastInDim S100000x40 ![0, 1] bcast_S1x40_S100000x40_0_1 (broadcastInDim S1x40 ![1] bcast_S40_S1x40_1 b))) (broadcastInDim S100000x40 ![] bcast_S_S100000x40 (constant (F := Ideal) S_ .f32 0x00000000#32))) (Host.divf (uitofp (F := Ideal) .f32 (cmpf (F := Ideal) .ogt u (broadcastInDim S100000x40 ![] bcast_S_S100000x40 (constant (F := Ideal) S_ .f32 0x3F000000#32)))) (broadcastInDim S100000x40 ![] bcast_S_S100000x40 (constant (F := Ideal) S_ .f32 0x3F000000#32)))) w
      = Cert.Spec.dense2 (Cert.Spec.hidden a b u) w := by
  rw [hidden_eq, dense2_eq]

/-! ## The log-softmax, row by row -/

/-- A scalar constant broadcast to any shape reads the constant's value everywhere. -/
theorem bcastConst_apply {T : Shape} (h : S_.BroadcastsInDim T ![]) (w : BitVec 32) (j : T.Idx) :
    broadcastInDim T ![] h (constant (F := Ideal) S_ .f32 w) j = Ideal.ofBits .f32 w := rfl

/-- A one-column matrix laid along every column reads its entry of the row. -/
theorem bcastCol_apply {m n : Nat} (h2 : (⟨2, ![m, 1]⟩ : Shape).BroadcastsInDim ⟨2, ![m, n]⟩ ![0, 1])
    (y : (⟨2, ![m, 1]⟩ : Shape).Idx → EReal) (p : Fin m) (q : Fin n) :
    broadcastInDim ⟨2, ![m, n]⟩ ![0, 1] h2 y (ix2 p q) = y (ix2 p (0 : Fin 1)) := by
  refine broadcastInDim_apply ![0, 1] h2 y (ix2 p q) (ix2 p (0 : Fin 1)) ?_
  intro a
  match a with
  | ⟨0, _⟩ =>
    show p.val = if m = 1 then 0 else p.val
    split
    · have := p.isLt; omega
    · rfl
  | ⟨1, _⟩ => rfl

/-- A vector stood up as a one-column matrix reads its entry of the row. -/
theorem bcastUnitCol_apply {m : Nat} (h1 : (⟨1, ![m]⟩ : Shape).BroadcastsInDim ⟨2, ![m, 1]⟩ ![0])
    (v : (⟨1, ![m]⟩ : Shape).Idx → EReal) (p : Fin m) (z : Fin 1) :
    broadcastInDim ⟨2, ![m, 1]⟩ ![0] h1 v (ix2 p z) = v (ix1 p) := by
  refine broadcastInDim_apply ![0] h1 v (ix2 p z) (ix1 p) ?_
  intro a
  match a with
  | ⟨0, _⟩ =>
    show p.val = if m = 1 then 0 else p.val
    split
    · have := p.isLt; omega
    · rfl

/-- The reduced row index `p` with column `k` put back is (p, k). -/
theorem lift_row (h : S100000x7.Reduces [1] S100000) (p : Fin 100000) (k : Fin (S100000x7.size 1)) :
    h.lift (ix1 p) k = ix2 p (⟨k.val, k.isLt⟩ : Fin 7) := by
  funext c; apply Fin.ext
  match c with
  | ⟨0, _⟩ => rfl
  | ⟨1, _⟩ => rfl

/-- Dropping the column axis of a 100000 by 7 array leaves its 100000 rows. -/
theorem reduces_d1 : S100000x7.Reduces [1] S100000 := by decide

/-- The max-reduce over the seven columns from minus infinity, at row `p`, is the fold of the row's maxima. -/
theorem rowMax_eq (x : FVec Ideal S100000x7 .f32) (p : Fin 100000) :
    Host.reduce FloatOps.maximumf x (constant (F := Ideal) S_ .f32 0xFF800000#32) reducesTo_S100000x7_S100000_d1 h_S_ (ix1 p)
      = Cert.Spec.rowMax fun j => x (ix2 p j) := by
  rw [Host.reduce_eq_fold_single FloatOps.maximumf x _ reducesTo_S100000x7_S100000_d1 reduces_d1 h_S_]
  have hf : (x ∘ reduces_d1.lift (ix1 p)) = fun k : Fin 7 => x (ix2 p k) :=
    funext fun k => congrArg x (lift_row reduces_d1 p k)
  exact congrArg (fun f => Finset.fold max (Ideal.ofBits .f32 0xFF800000#32) f (Finset.univ : Finset (Fin 7))) hf

/-- The sum-reduce over the seven columns from zero, at row `p`, is the row's sum. -/
theorem rowSum_eq (y : FVec Ideal S100000x7 .f32) (p : Fin 100000) :
    Host.reduceAdd y (constant (F := Ideal) S_ .f32 0x00000000#32) reducesTo_S100000x7_S100000_d1 h_S_ (ix1 p)
      = ∑ j : Fin 7, y (ix2 p j) := by
  show Ideal.hostReduceAdd reducesTo_S100000x7_S100000_d1 y (Ideal.ofBits .f32 0x00000000#32) (ix1 p) = _
  rw [Ideal.hostReduceAdd_single reducesTo_S100000x7_S100000_d1 reduces_d1, Ideal.ofBits_zero_f32, zero_add]
  exact Finset.sum_congr rfl fun k _ => congrArg y (lift_row reduces_d1 p k)

/-- The host's exponential at an index. -/
theorem hostExp_apply {s : Shape} (y : FVec Ideal s .f32) (i : s.Idx) : Host.exp y i = Ideal.exp (y i) := rfl

/-- The host's logarithm at an index. -/
theorem hostLog_apply {s : Shape} (y : FVec Ideal s .f32) (i : s.Idx) : Host.log y i = Ideal.log (y i) := rfl

/-- The maximum of a fold of maxima with its own start value is the fold. -/
theorem max_rowMax (l : Fin 7 → EReal) :
    max (Ideal.ofBits .f32 0xFF800000#32) (Cert.Spec.rowMax l) = Cert.Spec.rowMax l :=
  max_eq_right ((Finset.le_fold_max _).mpr (Or.inl le_rfl))

/-- The reference's shifted logits at (p, q): the entry minus its row's maximum. -/
theorem refShift_apply (x : FVec Ideal S100000x7 .f32) (p : Fin 100000) (q : Fin 7) :
    refShift x (ix2 p q) = x (ix2 p q) - Cert.Spec.rowMax fun j => x (ix2 p j) := by
  unfold refShift
  rw [subf_apply, bcastCol_apply, bcastUnitCol_apply, maximumf_apply, rowMax_eq, bcastConst_apply, max_rowMax]

/-- The reference's log-softmax at (p, q). -/
theorem refLsm_apply (x : FVec Ideal S100000x7 .f32) (p : Fin 100000) (q : Fin 7) :
    refLsm x (ix2 p q) = (x (ix2 p q) - Cert.Spec.rowMax fun j => x (ix2 p j))
      - Ideal.log (∑ j : Fin 7, Ideal.exp (x (ix2 p j) - Cert.Spec.rowMax fun j' => x (ix2 p j'))) := by
  unfold refLsm
  rw [subf_apply, bcastCol_apply, refShift_apply, hostLog_apply, bcastUnitCol_apply, rowSum_eq]
  simp only [hostExp_apply, refShift_apply]

/-- The reference's log-softmax of the biased aggregate is the specification's. -/
theorem lsm_eq (a : FVec Ideal S100000x7 .f32) (b : FVec Ideal S7 .f32) :
    refLsm (addf a (broadcastInDim S100000x7 ![0, 1] bcast_S1x7_S100000x7_0_1 (broadcastInDim S1x7 ![1] bcast_S7_S1x7_1 b))) = Cert.Spec.lsm a b := by
  funext i
  obtain ⟨p, q, rfl⟩ : ∃ (p : Fin 100000) (q : Fin 7), i = ix2 p q := ⟨i 0, i 1, eq_ix2 i⟩
  rw [refLsm_apply]
  have hx : ∀ j : Fin 7, addf a (broadcastInDim S100000x7 ![0, 1] bcast_S1x7_S100000x7_0_1 (broadcastInDim S1x7 ![1] bcast_S7_S1x7_1 b)) (ix2 p j) = Cert.Spec.logits a b p j := by
    intro j
    rw [addf_apply, bcastRow_apply]
    rfl
  simp only [hx]
  rfl

/-- The reference's result is the specification's stages composed around the aggregation. -/
theorem res_eq (m : (ℓ : Loc nD τ sig) → Buf (Elt Ideal) ℓ) (c : Dev nD) :
    Cert.ReferenceIdeal.RunP.res_main_v41 (F := Ideal) m c
      = Cert.Spec.lsm (agg7 (Cert.Spec.dense2 (Cert.Spec.hidden (agg40 (Cert.Spec.dense1 (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3))) (m ((c.tc : Thread nD τ).loc main_arg5)) (m ((c.tc : Thread nD τ).loc main_arg8))) (m ((c.tc : Thread nD τ).loc main_arg6))) (m ((c.tc : Thread nD τ).loc main_arg1)) (m ((c.tc : Thread nD τ).loc main_arg2)) (m ((c.tc : Thread nD τ).loc main_arg3))) (m ((c.tc : Thread nD τ).loc main_arg7)) := by
  rw [← dense1_eq, ← layer2_eq, ← lsm_eq]
  unfold Cert.ReferenceIdeal.RunP.res_main_v41 refLsm refShift agg7 agg40 wrapIdx
  rfl

end Cert.ReferenceIdeal.Stages

end
-- ==== Proof.KernelTerms.lean ====
/-
  The kernel program's host stages between its regions, as pure terms.

  Between two regions the kernel program gathers one row per edge from the region's output, scales it by the edge
  weight and adds it into the destination rows of a zero array. Its gather is spelled with a guard: the edge's
  source index, with the row count added when it is negative, is tested against the row range 0 … 99999, and where
  the test fails the gathered row is replaced by a fill value. `take40` / `take7` are that guarded gather;
  `agg40` / `agg7` are the aggregation over the plain gather, and `aggT40` / `aggT7` over the guarded one.
-/
import proofs.«415233_j2680059592878_3_alg».proof.KernelIdeal
import proofs.«415233_j2680059592878_3_alg».proof.Proof.Gen.KernelIdeal
import Idealize.ShloMosaic.PureOps.Ideal

noncomputable section

namespace Cert.KernelIdeal.Terms

open Cert.KernelIdeal Cert.KernelIdeal.Gen Idealize.ShloMosaic

/-- The edge source indices with the negative ones wrapped by the row count, as a column of start indices. -/
def wrapIdx (src : IVec S3200000 32) : IVec S3200000x1 32 :=
  broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src)

/-- Every edge's source index is a row index in numpy's sense: at least minus the row count, below the row count. -/
def SrcInRange (src : IVec S3200000 32) : Prop :=
  ∀ e : S3200000.Idx, (-100000 : Int) ≤ (src e).toInt ∧ (src e).toInt < 100000

/-- The guard: per edge, whether its start index lies in 0 … 99999. -/
def inRange (i5 : IVec S3200000x1 32) : IVec S3200000 1 :=
  Host.reduce IntOp.andi (andi (cmpi .sge i5 (broadcastInDim S3200000x1 ![] bcast_S_S3200000x1 (constantI S_ 32 0#32))) (cmpi .sle i5 (broadcastInDim S3200000x1 ![0, 1] bcast_S1x1_S3200000x1_0_1 (broadcastInDim S1x1 ![1] bcast_S1_S1x1_1 (constantI S1 32 99999#32))))) (constantI S_ 1 1#1) reducesTo_S3200000x1_S3200000_d1 h_S_

/-- The guarded gather of a 40-column array. -/
def take40 (s : FVec Ideal S100000x40 .f32) (src : IVec S3200000 32) : FVec Ideal S3200000x40 .f32 :=
  select (broadcastInDim S3200000x40 ![0] bcast_S3200000_S3200000x40_0 (inRange (wrapIdx src))) (Host.gather gather_S100000x40_S3200000x1_S3200000x40_1_0_n_n_0_1_140 s (wrapIdx src)) (broadcastInDim S3200000x40 ![] bcast_S_S3200000x40 (constant (F := Ideal) S_ .f32 0x7FC00000#32))

/-- The guarded gather of a 7-column array. -/
def take7 (s : FVec Ideal S100000x7 .f32) (src : IVec S3200000 32) : FVec Ideal S3200000x7 .f32 :=
  select (broadcastInDim S3200000x7 ![0] bcast_S3200000_S3200000x7_0 (inRange (wrapIdx src))) (Host.gather gather_S100000x7_S3200000x1_S3200000x7_1_0_n_n_0_1_17 s (wrapIdx src)) (broadcastInDim S3200000x7 ![] bcast_S_S3200000x7 (constant (F := Ideal) S_ .f32 0x7FC00000#32))

/-- Scale the gathered rows by the edge weights and add them into the destination rows of zero (40 columns). -/
def scat40 (g : FVec Ideal S3200000x40 .f32) (dst : IVec S3200000 32) (ew : FVec Ideal S3200000 .f32) : FVec Ideal S100000x40 .f32 :=
  Host.scatterAdd scatter_S100000x40_S3200000x1_S3200000x40_1_0_0_1 (broadcastInDim S100000x40 ![] bcast_S_S100000x40 (constant (F := Ideal) S_ .f32 0x00000000#32)) (broadcastInDim S3200000x1 ![0] bcast_S3200000_S3200000x1_0 dst) (mulf g (broadcastInDim S3200000x40 ![0, 1] bcast_S3200000x1_S3200000x40_0_1 (broadcastInDim S3200000x1 ![0] bcast_S3200000_S3200000x1_0 ew)))

/-- The same for 7 columns. -/
def scat7 (g : FVec Ideal S3200000x7 .f32) (dst : IVec S3200000 32) (ew : FVec Ideal S3200000 .f32) : FVec Ideal S100000x7 .f32 :=
  Host.scatterAdd scatter_S100000x7_S3200000x1_S3200000x7_1_0_0_1 (broadcastInDim S100000x7 ![] bcast_S_S100000x7 (constant (F := Ideal) S_ .f32 0x00000000#32)) (broadcastInDim S3200000x1 ![0] bcast_S3200000_S3200000x1_0 dst) (mulf g (broadcastInDim S3200000x7 ![0, 1] bcast_S3200000x1_S3200000x7_0_1 (broadcastInDim S3200000x1 ![0] bcast_S3200000_S3200000x1_0 ew)))

/-- The aggregation over the plain gather (40 columns). -/
def agg40 (s : FVec Ideal S100000x40 .f32) (src dst : IVec S3200000 32) (ew : FVec Ideal S3200000 .f32) : FVec Ideal S100000x40 .f32 :=
  scat40 (Host.gather gather_S100000x40_S3200000x1_S3200000x40_1_0_n_n_0_1_140 s (wrapIdx src)) dst ew
/-- The aggregation over the plain gather (7 columns). -/
def agg7 (s : FVec Ideal S100000x7 .f32) (src dst : IVec S3200000 32) (ew : FVec Ideal S3200000 .f32) : FVec Ideal S100000x7 .f32 :=
  scat7 (Host.gather gather_S100000x7_S3200000x1_S3200000x7_1_0_n_n_0_1_17 s (wrapIdx src)) dst ew
/-- The aggregation as the kernel program spells it, over the guarded gather (40 columns). -/
def aggT40 (s : FVec Ideal S100000x40 .f32) (src dst : IVec S3200000 32) (ew : FVec Ideal S3200000 .f32) : FVec Ideal S100000x40 .f32 :=
  scat40 (take40 s src) dst ew
/-- The aggregation as the kernel program spells it, over the guarded gather (7 columns). -/
def aggT7 (s : FVec Ideal S100000x7 .f32) (src dst : IVec S3200000 32) (ew : FVec Ideal S3200000 .f32) : FVec Ideal S100000x7 .f32 :=
  scat7 (take7 s src) dst ew

end Cert.KernelIdeal.Terms

end
-- ==== Proof.LibTypedRead.lean ====
/-
  Reading a host operation's result through a TYPED reference, without transports.

  A function that jax outlined (a softmax, a clip) prints once, over references that carry the type of the tensor they
  hold (`StableHlo.TRef sig T`); each of its operations moves its function to the reference's own buffer type along the
  equation `ref.ty = T` (`TRef.toBuf` / `TRef.ofBuf`: a `cast` each way). Read back with the untyped result lemmas, every
  intermediate value comes out wrapped in such a pair of casts, and a term with a cast at its head above a large
  operation is expensive to compare with anything: the comparison opens the operation before it opens the cast.

  So read a typed reference AT ITS TYPE: `read x V` is `V` at `x`'s buffer, moved to `T`. Then every typed builder has a
  result lemma with no cast in it — `read y` of a `TRef.binary a b y f` is `f (read a V) (read b V)` — because moving a value
  to the buffer's type and back is the identity for ANY typed reference (`ofBuf_toBuf`: by `subst` of the reference's
  type equation, no computation). At a literal reference `read (.of r) V = V r` by `rfl`, on a term with nothing under it.
-/
import Idealize.ShloMosaic.Lib.StableHlo.Run

noncomputable section

namespace Cert.TypedRead

open Idealize.ShloMosaic Idealize.ShloMosaic.StableHlo

variable {τ : Topo} {sig : RefSig} {Val : EltTy → Type} {T Tx Ta Tb Ty : BufTy}

/-- The contents of a typed reference's buffer, at the reference's type. -/
def read (x : TRef sig T) (V : Valuation τ sig Val) : T.Contents Val := x.ofBuf (V (Proc.devRef .tc x.ref))

/-- To the buffer's type and back is the identity, whatever the reference. -/
theorem ofBuf_toBuf (x : TRef sig T) (v : T.Contents Val) : x.ofBuf (x.toBuf (Val := Val) v) = v := by
  obtain ⟨r, h, h2, h3⟩ := x
  subst h
  rfl

/-! ## A typed builder's result at its own reference -/

theorem read_nullary (y : TRef sig Ty) (v : Ty.Contents Val) (V : Valuation τ sig Val) :
    read y ((no_index (TRef.nullary (τ := τ) y v)).result V) = v := by
  unfold read
  exact (congrArg y.ofBuf (nullary_result y.ref (y.toBuf v) y.dev V)).trans (ofBuf_toBuf y v)

theorem read_unary (x : TRef sig Tx) (y : TRef sig Ty) (f : Tx.Contents Val → Ty.Contents Val) (V : Valuation τ sig Val) :
    read y ((no_index (TRef.unary (τ := τ) x y f)).result V) = f (read x V) := by
  unfold read
  exact (congrArg y.ofBuf (unary_result x.ref y.ref (fun u => y.toBuf (f (x.ofBuf u))) x.dev y.dev V)).trans
    (ofBuf_toBuf y _)

theorem read_binary (a : TRef sig Ta) (b : TRef sig Tb) (y : TRef sig Ty)
    (f : Ta.Contents Val → Tb.Contents Val → Ty.Contents Val) (V : Valuation τ sig Val) :
    read y ((no_index (TRef.binary (τ := τ) a b y f)).result V) = f (read a V) (read b V) := by
  unfold read
  exact (congrArg y.ofBuf (binary_result a.ref b.ref y.ref (fun u v => y.toBuf (f (a.ofBuf u) (b.ofBuf v))) a.dev b.dev y.dev V)).trans
    (ofBuf_toBuf y _)

/-! ## … and at any other reference: what was there -/

theorem read_nullary_ne (z : TRef sig T) (y : TRef sig Ty) (v : Ty.Contents Val) (V : Valuation τ sig Val) (h : z.ref ≠ y.ref) :
    read z ((no_index (TRef.nullary (τ := τ) y v)).result V) = read z V := by
  unfold read
  exact congrArg z.ofBuf (nullary_result_ne (y := y.ref) (y.toBuf v) y.dev V h)

theorem read_unary_ne (z : TRef sig T) (x : TRef sig Tx) (y : TRef sig Ty) (f : Tx.Contents Val → Ty.Contents Val)
    (V : Valuation τ sig Val) (h : z.ref ≠ y.ref) :
    read z ((no_index (TRef.unary (τ := τ) x y f)).result V) = read z V := by
  unfold read
  exact congrArg z.ofBuf (unary_result_ne (x := x.ref) (y := y.ref) (fun u => y.toBuf (f (x.ofBuf u))) x.dev y.dev V h)

theorem read_binary_ne (z : TRef sig T) (a : TRef sig Ta) (b : TRef sig Tb) (y : TRef sig Ty)
    (f : Ta.Contents Val → Tb.Contents Val → Ty.Contents Val) (V : Valuation τ sig Val) (h : z.ref ≠ y.ref) :
    read z ((no_index (TRef.binary (τ := τ) a b y f)).result V) = read z V := by
  unfold read
  exact congrArg z.ofBuf (binary_result_ne (a := a.ref) (b := b.ref) (y := y.ref) (fun u v => y.toBuf (f (a.ofBuf u) (b.ofBuf v))) a.dev b.dev y.dev V h)

end Cert.TypedRead

end
-- ==== Proof.KernelHost.lean ====
/-
  What the kernel program's host stretches leave in their result buffers.

  Between its regions the kernel program runs two host stretches: the guarded gather of one row per edge (an
  outlined function of 23 operations over typed references), then seven plain operations that scale the gathered rows
  by the edge weights and add them into the destination rows of a zero array. Each stretch is read here as ONE pure
  term of the contents it starts from, for an arbitrary valuation: the contents at a buffer after a list of
  operations is the last writer's function of its operands' contents, and a buffer nothing writes keeps its contents.
  A typed reference's contents are read at the reference's own type, so no transport appears in the terms.
-/
import proofs.«415233_j2680059592878_3_alg».proof.Proof.Gen.KernelIdeal.Launch
import proofs.«415233_j2680059592878_3_alg».proof.Proof.KernelTerms
import proofs.«415233_j2680059592878_3_alg».proof.Proof.LibTypedRead
import Idealize.ShloMosaic.Lib.StableHlo.Run

set_option maxRecDepth 16384

noncomputable section

namespace Cert.KernelIdeal.HostRead

open Cert.KernelIdeal Cert.KernelIdeal.Gen Cert.KernelIdeal.Terms Cert.TypedRead
open Idealize.ShloMosaic Idealize.ShloMosaic.TcCoe Idealize.ShloMosaic.StableHlo

/-! ## A three-operand operation read through typed references -/

section Ternary

variable {τ : Topo} {sig : RefSig} {Val : EltTy → Type} {T Tc Ta Tb Ty : BufTy}

/-- The result of a three-operand operation, at its own reference and type, is its function of the operands'
    contents at their types. -/
theorem read_ternary (c : TRef sig Tc) (a : TRef sig Ta) (b : TRef sig Tb) (y : TRef sig Ty)
    (f : Tc.Contents Val → Ta.Contents Val → Tb.Contents Val → Ty.Contents Val) (V : Valuation τ sig Val) :
    read y ((no_index (TRef.ternary (τ := τ) c a b y f)).result V) = f (read c V) (read a V) (read b V) := by
  unfold Cert.TypedRead.read
  exact (congrArg y.ofBuf (ternary_result c.ref a.ref b.ref y.ref
    (fun w u v => y.toBuf (f (c.ofBuf w) (a.ofBuf u) (b.ofBuf v))) c.dev a.dev b.dev y.dev V)).trans (ofBuf_toBuf y _)

/-- At any other reference a three-operand operation leaves what was there. -/
theorem read_ternary_ne (z : TRef sig T) (c : TRef sig Tc) (a : TRef sig Ta) (b : TRef sig Tb) (y : TRef sig Ty)
    (f : Tc.Contents Val → Ta.Contents Val → Tb.Contents Val → Ty.Contents Val) (V : Valuation τ sig Val)
    (h : z.ref ≠ y.ref) :
    read z ((no_index (TRef.ternary (τ := τ) c a b y f)).result V) = read z V := by
  unfold Cert.TypedRead.read
  exact congrArg z.ofBuf (ternary_result_ne (c := c.ref) (a := a.ref) (b := b.ref) (y := y.ref)
    (fun w u v => y.toBuf (f (c.ofBuf w) (a.ofBuf u) (b.ofBuf v))) c.dev a.dev b.dev y.dev V h)

end Ternary

/-! ## The four stretches, from an arbitrary valuation -/

variable (Wv : Valuation τ sig (Elt Ideal))

/-- After the first guarded gather's operations its result buffer holds the guarded gather of the first region's
    output by the source indices. -/
theorem take40_stretch :
    StableHlo.after (hostOps1 (F := Ideal)) Wv (Proc.devRef .tc main_v1)
      = take40 (Wv (Proc.devRef .tc main_v0)) (Wv (Proc.devRef .tc main_arg1)) := by
  show read (.of main_v1 : TRef sig ⟨S3200000x40, .f32⟩) (StableHlo.after (hostOps1 (F := Ideal)) Wv)
    = take40 (read (.of main_v0 : TRef sig ⟨S100000x40, .f32⟩) Wv) (read (.of main_arg1 : TRef sig ⟨S3200000, .i32⟩) Wv)
  simp (disch := decide) only [hostOps1, after_cons, after_nil, read_nullary, read_unary, read_binary, read_ternary,
    read_nullary_ne, read_unary_ne, read_binary_ne, read_ternary_ne]
  rfl

/-- After the second guarded gather's operations its result buffer holds the guarded gather of the second region's
    output by the source indices. -/
theorem take7_stretch :
    StableHlo.after (hostOps2 (F := Ideal)) Wv (Proc.devRef .tc main_v9)
      = take7 (Wv (Proc.devRef .tc main_v8)) (Wv (Proc.devRef .tc main_arg1)) := by
  show read (.of main_v9 : TRef sig ⟨S3200000x7, .f32⟩) (StableHlo.after (hostOps2 (F := Ideal)) Wv)
    = take7 (read (.of main_v8 : TRef sig ⟨S100000x7, .f32⟩) Wv) (read (.of main_arg1 : TRef sig ⟨S3200000, .i32⟩) Wv)
  simp (disch := decide) only [hostOps2, after_cons, after_nil, read_nullary, read_unary, read_binary, read_ternary,
    read_nullary_ne, read_unary_ne, read_binary_ne, read_ternary_ne]
  rfl

/-- After the first scaling and scatter-add its result buffer holds the gathered rows, scaled and added into the
    destination rows of zero. -/
theorem scat40_stretch :
    StableHlo.after (hostOps1_1 (F := Ideal)) Wv (Proc.devRef .tc main_v7)
      = scat40 (Wv (Proc.devRef .tc main_v1)) (Wv (Proc.devRef .tc main_arg2)) (Wv (Proc.devRef .tc main_arg3)) := by
  after_results_simp <;> rfl

/-- The same for the second scaling and scatter-add. -/
theorem scat7_stretch :
    StableHlo.after (hostOps2_1 (F := Ideal)) Wv (Proc.devRef .tc main_v15)
      = scat7 (Wv (Proc.devRef .tc main_v9)) (Wv (Proc.devRef .tc main_arg2)) (Wv (Proc.devRef .tc main_arg3)) := by
  after_results_simp <;> rfl

/-! ## What a stretch does not write it keeps -/

theorem keep1_arg1 : StableHlo.after (hostOps1 (F := Ideal)) Wv (Proc.devRef .tc main_arg1) = Wv (Proc.devRef .tc main_arg1) := by
  after_results_simp <;> rfl

theorem keep1_arg2 : StableHlo.after (hostOps1 (F := Ideal)) Wv (Proc.devRef .tc main_arg2) = Wv (Proc.devRef .tc main_arg2) := by
  after_results_simp <;> rfl

theorem keep1_arg3 : StableHlo.after (hostOps1 (F := Ideal)) Wv (Proc.devRef .tc main_arg3) = Wv (Proc.devRef .tc main_arg3) := by
  after_results_simp <;> rfl

theorem keep1_arg5 : StableHlo.after (hostOps1 (F := Ideal)) Wv (Proc.devRef .tc main_arg5) = Wv (Proc.devRef .tc main_arg5) := by
  after_results_simp <;> rfl

theorem keep1_arg6 : StableHlo.after (hostOps1 (F := Ideal)) Wv (Proc.devRef .tc main_arg6) = Wv (Proc.devRef .tc main_arg6) := by
  after_results_simp <;> rfl

theorem keep1_arg7 : StableHlo.after (hostOps1 (F := Ideal)) Wv (Proc.devRef .tc main_arg7) = Wv (Proc.devRef .tc main_arg7) := by
  after_results_simp <;> rfl

theorem keep1_arg8 : StableHlo.after (hostOps1 (F := Ideal)) Wv (Proc.devRef .tc main_arg8) = Wv (Proc.devRef .tc main_arg8) := by
  after_results_simp <;> rfl

theorem keep11_arg1 : StableHlo.after (hostOps1_1 (F := Ideal)) Wv (Proc.devRef .tc main_arg1) = Wv (Proc.devRef .tc main_arg1) := by
  after_results_simp <;> rfl

theorem keep11_arg2 : StableHlo.after (hostOps1_1 (F := Ideal)) Wv (Proc.devRef .tc main_arg2) = Wv (Proc.devRef .tc main_arg2) := by
  after_results_simp <;> rfl

theorem keep11_arg3 : StableHlo.after (hostOps1_1 (F := Ideal)) Wv (Proc.devRef .tc main_arg3) = Wv (Proc.devRef .tc main_arg3) := by
  after_results_simp <;> rfl

theorem keep11_arg5 : StableHlo.after (hostOps1_1 (F := Ideal)) Wv (Proc.devRef .tc main_arg5) = Wv (Proc.devRef .tc main_arg5) := by
  after_results_simp <;> rfl

theorem keep11_arg6 : StableHlo.after (hostOps1_1 (F := Ideal)) Wv (Proc.devRef .tc main_arg6) = Wv (Proc.devRef .tc main_arg6) := by
  after_results_simp <;> rfl

theorem keep11_arg7 : StableHlo.after (hostOps1_1 (F := Ideal)) Wv (Proc.devRef .tc main_arg7) = Wv (Proc.devRef .tc main_arg7) := by
  after_results_simp <;> rfl

theorem keep11_arg8 : StableHlo.after (hostOps1_1 (F := Ideal)) Wv (Proc.devRef .tc main_arg8) = Wv (Proc.devRef .tc main_arg8) := by
  after_results_simp <;> rfl

theorem keep2_arg2 : StableHlo.after (hostOps2 (F := Ideal)) Wv (Proc.devRef .tc main_arg2) = Wv (Proc.devRef .tc main_arg2) := by
  after_results_simp <;> rfl

theorem keep2_arg3 : StableHlo.after (hostOps2 (F := Ideal)) Wv (Proc.devRef .tc main_arg3) = Wv (Proc.devRef .tc main_arg3) := by
  after_results_simp <;> rfl

theorem keep2_arg7 : StableHlo.after (hostOps2 (F := Ideal)) Wv (Proc.devRef .tc main_arg7) = Wv (Proc.devRef .tc main_arg7) := by
  after_results_simp <;> rfl

theorem keep21_arg7 : StableHlo.after (hostOps2_1 (F := Ideal)) Wv (Proc.devRef .tc main_arg7) = Wv (Proc.devRef .tc main_arg7) := by
  after_results_simp <;> rfl

end Cert.KernelIdeal.HostRead

end
-- ==== Proof.Region0.lean ====
/-
  The first region's output array after its fifty grid points.

  Point t multiplies rows 2000 t … 2000 t + 1999 of the node features by the whole first weight matrix (the cast to
  bf16 is the identity on the extended reals, and the product accumulates into zero), and writes the 2000 x 40 result
  back to the same rows of the output. The fifty row blocks tile the 100000 rows, so the array ends as the dense
  product of the whole feature matrix with the weight matrix.

  The proof has two halves. At one point, the block's product is read entry by entry: entry (p, q) of the block is the
  sum over the 1433 features k of the feature block's (p, k) times the weight block's (k, q). The feature block's row p
  is row 2000 t + p of the feature matrix and the weight block is the whole weight matrix, so that sum is the dense
  product's entry (2000 t + p, q), which is where the output block's entry (p, q) sits in the output array. Over the
  grid, row r of the output lies in the block of the point whose row-block index is r / 2000, and every point writes
  its block back, so every entry of the array is written with the dense product's value.
-/
import proofs.«415233_j2680059592878_3_alg».proof.Proof.Gen.KernelIdeal.Frame
import proofs.«415233_j2680059592878_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- The two zero offsets of a whole-buffer access are the constant zero function. -/
theorem hz : (![0, 0] : Fin 2 → Nat) = fun _ => 0 := funext fun a => by fin_cases a <;> rfl

/-! ## The product's operand indices

At output entry i and contraction index q, the left operand is read at (row of i, q) and the right operand at
(q, column of i). -/

theorem lhs_0 (i : S2000x40.Idx) (q : dot_S2000x1433_S1433x40_S2000x40_1_0_0_1_n_n.contr.Idx) :
    (dot_S2000x1433_S1433x40_S2000x40_1_0_0_1_n_n.lhsIdx i q 0).val = (i 0).val := by
  unfold DotDims.lhsIdx
  rw [dif_neg (show ¬(0 : Fin S2000x1433.rank) ∈ dot_S2000x1433_S1433x40_S2000x40_1_0_0_1_n_n.lhsBatch by decide),
    dif_pos (show (0 : Fin S2000x1433.rank) ∈ dot_S2000x1433_S1433x40_S2000x40_1_0_0_1_n_n.lhsNonContracting by decide)]
  rfl

theorem lhs_1 (i : S2000x40.Idx) (q : dot_S2000x1433_S1433x40_S2000x40_1_0_0_1_n_n.contr.Idx) :
    (dot_S2000x1433_S1433x40_S2000x40_1_0_0_1_n_n.lhsIdx i q 1).val = (q ⟨0, by decide⟩).val :=
  dot_S2000x1433_S1433x40_S2000x40_1_0_0_1_n_n.lhsIdx_val_of_single rfl i q

theorem rhs_0 (i : S2000x40.Idx) (q : dot_S2000x1433_S1433x40_S2000x40_1_0_0_1_n_n.contr.Idx) :
    (dot_S2000x1433_S1433x40_S2000x40_1_0_0_1_n_n.rhsIdx i q 0).val = (q ⟨0, by decide⟩).val :=
  dot_S2000x1433_S1433x40_S2000x40_1_0_0_1_n_n.rhsIdx_val_of_single rfl i q

theorem rhs_1 (i : S2000x40.Idx) (q : dot_S2000x1433_S1433x40_S2000x40_1_0_0_1_n_n.contr.Idx) :
    (dot_S2000x1433_S1433x40_S2000x40_1_0_0_1_n_n.rhsIdx i q 1).val = (i 1).val := by
  unfold DotDims.rhsIdx
  rw [dif_neg (show ¬(1 : Fin S1433x40.rank) ∈ dot_S2000x1433_S1433x40_S2000x40_1_0_0_1_n_n.rhsBatch by decide),
    dif_pos (show (1 : Fin S1433x40.rank) ∈ dot_S2000x1433_S1433x40_S2000x40_1_0_0_1_n_n.rhsNonContracting by decide)]
  rfl

/-- One block's product at an entry: the sum over the 1433 features of the block's row against the weights' column. -/
theorem pay_apply (x0 : Vec Ideal S2000x1433 .f32) (x1 : Vec Ideal S1433x40 .f32) (p : Fin 2000) (q : Fin 40) :
    k0_pay1 (F := Ideal) x0 x1 (ix2 p q) = ∑ k : Fin 1433, x0 (ix2 p k) * x1 (ix2 k q) := by
  unfold k0_pay1
  refine (Ideal.matmul_constant_zero_apply dot_S2000x1433_S1433x40_S2000x40_1_0_0_1_n_n none _ _ (ix2 p q)).trans ?_
  rw [← Equiv.sum_comp (ValueIdx.contrEquiv1 dot_S2000x1433_S1433x40_S2000x40_1_0_0_1_n_n 1433 rfl rfl).symm]
  refine Finset.sum_congr rfl fun k _ => ?_
  have hk := ValueIdx.contrEquiv1_symm_val dot_S2000x1433_S1433x40_S2000x40_1_0_0_1_n_n 1433 rfl rfl k
  have el : dot_S2000x1433_S1433x40_S2000x40_1_0_0_1_n_n.lhsIdx (ix2 p q)
      ((ValueIdx.contrEquiv1 dot_S2000x1433_S1433x40_S2000x40_1_0_0_1_n_n 1433 rfl rfl).symm k) = ix2 p k :=
    funext fun a => Fin.ext (by match a with | ⟨0, _⟩ => exact lhs_0 _ _ | ⟨1, _⟩ => exact (lhs_1 _ _).trans hk)
  have er : dot_S2000x1433_S1433x40_S2000x40_1_0_0_1_n_n.rhsIdx (ix2 p q)
      ((ValueIdx.contrEquiv1 dot_S2000x1433_S1433x40_S2000x40_1_0_0_1_n_n 1433 rfl rfl).symm k) = ix2 k q :=
    funext fun a => Fin.ext (by match a with | ⟨0, _⟩ => exact (rhs_0 _ _).trans hk | ⟨1, _⟩ => exact rhs_1 _ _)
  rw [el, er]
  rfl

/-- A block's product is the dense product of the whole arrays at the entry the block's entry stands for: when the
    block of features holds the rows r p of the feature matrix and the weights' block is the whole weight matrix, the
    block's entry (p, q) is the dense product's entry (r p, q). -/
theorem block_product (X : FVec Ideal ⟨2, ![100000, 1433]⟩ .f32) (W : FVec Ideal ⟨2, ![1433, 40]⟩ .f32)
    (x0 : Vec Ideal S2000x1433 .f32) (x1 : Vec Ideal S1433x40 .f32) (r : Fin 2000 → Fin 100000)
    (h0 : ∀ (p : Fin 2000) (k : Fin 1433), x0 (ix2 p k) = X (ix2 (r p) k))
    (h1 : ∀ (k : Fin 1433) (q : Fin 40), x1 (ix2 k q) = W (ix2 k q))
    (p : Fin 2000) (q : Fin 40) (i : (⟨2, ![100000, 40]⟩ : Shape).Idx)
    (hi0 : (i 0).val = (r p).val) (hi1 : (i 1).val = q.val) :
    k0_pay1 (F := Ideal) x0 x1 (ix2 p q) = Cert.Spec.dense1 X W i := by
  rw [pay_apply]
  unfold Cert.Spec.dense1
  have hr : Cert.Spec.row i = r p := Fin.ext hi0
  have hc : Cert.Spec.col i = q := Fin.ext hi1
  rw [hr, hc]
  exact Finset.sum_congr rfl fun k _ => by rw [h0, h1]

/-! ## From the fifty blocks to the array -/

/-- The windows' index maps over the grid: the feature block moves with the output block along the rows, every other
    block index is zero, and the output's row-block index stays below fifty. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

/-- Every one of the fifty row blocks is some point's output block. -/
theorem idx_onto : ∀ (b : Fin 50), ∃ t : Fin cfg0.N, win0_2.index t = ![b.val, 0] :=
  (by decide +kernel : ∀ (b : Fin 50), ∃ t : Fin grid0.N, win0_2.index t = ![b.val, 0])

/-- What point t writes back is block t of the dense product of the arrays as the region finds them. -/
theorem flushed_eq (c : Dev nD) (t : Fin cfg0.N) :
    (dat0 (F := Ideal) V c).flushed 2 t
      = ((cfg0.win 2).blk t).view.read (Elt Ideal) (Cert.Spec.dense1 (V c main_arg0) (V c main_arg4)) := by
  show (cfg0.win 2).cut (grid0.coords t) ((dat0 (F := Ideal) V c).after 2 t) = _
  rw [after0_2]
  unfold out0_2
  rw [View.canon_unit_zero hz]
  simp only [View.ld_unit_zero (S := S2000x1433) hz, View.ld_unit_zero (S := S1433x40) hz]
  obtain ⟨e0, e1, e2, e3, e4, e5⟩ := idx_facts t
  have hb : ∀ p : Fin 2000, win0_2.index t (0 : Fin 2) * 2000 + p.val < 100000 := fun p => by
    have := p.isLt; omega
  funext j
  obtain ⟨p, q, rfl⟩ : ∃ (p : Fin 2000) (q : Fin 40), j = ix2 p q := ⟨j 0, j 1, eq_ix2 j⟩
  refine block_product (V c main_arg0) (V c main_arg4) (iblk0 V c 0 t) (iblk0 V c 1 t)
    (fun p => ⟨win0_2.index t (0 : Fin 2) * 2000 + p.val, hb p⟩) ?_ ?_ p q
    (((cfg0.win 2).blk t).view.emb (ix2 p q)) ?_ ?_
  · intro p k
    show V c main_arg0 (((cfg0.win 0).blk t).view.emb (ix2 p k))
      = V c main_arg0 (ix2 ⟨win0_2.index t (0 : Fin 2) * 2000 + p.val, hb p⟩ k)
    refine congrArg (V c main_arg0) (funext fun a => Fin.ext ?_)
    match a with
    | ⟨0, _⟩ =>
      show win0_0.index t (0 : Fin 2) * 2000 + 1 * p.val = win0_2.index t (0 : Fin 2) * 2000 + p.val
      omega
    | ⟨1, _⟩ =>
      show win0_0.index t (1 : Fin 2) * 1433 + 1 * k.val = k.val
      omega
  · intro k q
    show V c main_arg4 (((cfg0.win 1).blk t).view.emb (ix2 k q)) = V c main_arg4 (ix2 k q)
    refine congrArg (V c main_arg4) (funext fun a => Fin.ext ?_)
    match a with
    | ⟨0, _⟩ =>
      show win0_1.index t (0 : Fin 2) * 1433 + 1 * k.val = k.val
      omega
    | ⟨1, _⟩ =>
      show win0_1.index t (1 : Fin 2) * 40 + 1 * q.val = q.val
      omega
  · show win0_2.index t (0 : Fin 2) * 2000 + 1 * p.val = win0_2.index t (0 : Fin 2) * 2000 + p.val
    omega
  · show win0_2.index t (1 : Fin 2) * 40 + 1 * q.val = q.val
    omega

/-- An index of the output array is in point t's block iff each coordinate is in the block's range on its axis. -/
theorem mem_blk (t : Fin cfg0.N) (i : S100000x40.Idx) :
    i ∈ ((cfg0.win 2).blk t).view.set ↔ ∀ a : Fin 2, win0_2.index t a * S2000x40.size a ≤ (i a).val
      ∧ (i a).val < win0_2.index t a * S2000x40.size a + S2000x40.size a := by
  show i ∈ ((View.whole main_v0).slice (win0_2.rect t)).set ↔ _
  rw [View.set_slice_whole, Rect.mem_set_unit]
  exact Iff.rfl

/-- The fifty row blocks tile the array: row r lies in the block of the point whose row-block index is r / 2000. -/
theorem cover (i : S100000x40.Idx) :
    ∃ t : Fin cfg0.N, (cfg0.win 2).flush t = true ∧ i ∈ ((cfg0.win 2).blk t).view.set := by
  have hi0 : (i 0).val < 100000 := (i 0).isLt
  have hi1 : (i 1).val < 40 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 40 ≤ (i 1).val ∧ (i 1).val < win0_2.index t (1 : Fin 2) * 40 + 40
    omega

/-- The output array of the first region is the dense product of the features and the first weights, as the region
    finds them. -/
theorem final (c : Dev nD) :
    (dat0 (F := Ideal) V c).arrAt 2 cfg0.N = Cert.Spec.dense1 (V c main_arg0) (V c main_arg4) :=
  (dat0 (F := Ideal) V c).arrAt_eq_of_cover 2 (Cert.Spec.dense1 (V c main_arg0) (V c main_arg4))
    (fun t _ => flushed_eq V c t) cover

end Cert.KernelIdeal.Region0

end
-- ==== Proof.Region1.lean ====
/-
  The second region's output array after its fifty grid points.

  Point t takes rows 2000 t … 2000 t + 1999 of the aggregated first layer, adds the bias row, clamps below at zero,
  multiplies by the dropout keep factor of the same rows of the uniform draws (the comparison's bit against one half,
  times 2), and multiplies the 2000 x 40 result by the whole second weight matrix into zero. The fifty row blocks
  tile the rows, so the array ends as the second dense product of the hidden layer.

  The proof reads the body's result at one entry (p, q) of a block: a sum over the forty hidden units k of the
  rectified, kept entry (p, k) times the weight (k, q); the comparison's bit, widened to a word and read as a signed
  integer, is the bit as a number, and the literal it is scaled by is the real 2. Row p of point t's blocks of the two
  row-blocked inputs is row 2000 t + p of their arrays, while the bias and the weights are whole at every point, so the
  entry is entry (2000 t + p, q) of the specification; row r lies in the block of point r / 2000.
-/
import proofs.«415233_j2680059592878_3_alg».proof.Proof.Gen.KernelIdeal.Frame
import proofs.«415233_j2680059592878_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The body's arithmetic at an index -/

/-- The zero-extension of a comparison's bit to a word, read signed, is the bit as a number. -/
theorem toInt_setWidth_bit : ∀ b : BitVec 1, ((b.setWidth 32).toInt : Int) = (b.toNat : Int) := by decide

/-- The pointwise part of the body at row p, hidden unit k: bias, rectifier, keep factor. -/
theorem hid_apply (x0 : Vec Ideal S2000x40 .f32) (b : Vec Ideal S40 .f32) (x2 : Vec Ideal S2000x40 .f32)
    (p : Fin 2000) (k : Fin 40) :
    (truncf .bf16 (mulf (maximumf (addf (shapeCast S2000x40 x0 shapeCasts_S2000x40_S2000x40)
        (broadcastTo S2000x40 (shapeCast S1x40 b shapeCasts_S40_S1x40) broadcasts_S1x40_S2000x40))
        (broadcast S2000x40 (Scalar.ofBits (F := Ideal) .f32 0x00000000#32)))
      (mulf (sitofp .f32 (extui 32 (cmpf .ogt x2 (broadcast S2000x40 (Scalar.ofBits (F := Ideal) .f32 0x3F000000#32))) natLt_1_32))
        (broadcast S2000x40 (Scalar.ofBits (F := Ideal) .f32 0x40000000#32)))) bitsLt_bf16_f32 : FVec Ideal S2000x40 .bf16) (ix2 p k)
      = max (x0 (ix2 p k) + b (ix1 k)) (Ideal.ofBits .f32 0x00000000#32) * Cert.Spec.keep (x2 (ix2 p k)) := by
  rw [truncf_apply, mulf_apply, maximumf_apply, addf_apply, mulf_apply, broadcast_apply, broadcast_apply, sitofp_apply,
    extui_apply, cmpf_apply, broadcast_apply, shapeCast_self, broadcastTo_1b_ab_apply, shapeCast_a_1a_apply]
  show max _ (Ideal.ofBits .f32 0x00000000#32) * ((((BitVec.setWidth 32 (Ideal.cmp .ogt (x2 (ix2 p k)) (Ideal.ofBits .f32 0x3F000000#32))).toInt : ℝ) : EReal) * Ideal.ofBits .f32 0x40000000#32) = _
  rw [toInt_setWidth_bit, Int.cast_natCast, Cert.Spec.ofBits_two]
  rfl

/-! The product's operand indices, axis by axis: the left operand is read at (row of the output, contraction index),
    the right one at (contraction index, column of the output). -/

theorem lhs_0 (i : S2000x7.Idx) (q : dot_S2000x40_S40x7_S2000x7_1_0_0_1_n_n.contr.Idx) :
    (dot_S2000x40_S40x7_S2000x7_1_0_0_1_n_n.lhsIdx i q 0).val = (i 0).val := by
  unfold DotDims.lhsIdx
  rw [dif_neg (show ¬(0 : Fin S2000x40.rank) ∈ dot_S2000x40_S40x7_S2000x7_1_0_0_1_n_n.lhsBatch by decide),
    dif_pos (show (0 : Fin S2000x40.rank) ∈ dot_S2000x40_S40x7_S2000x7_1_0_0_1_n_n.lhsNonContracting by decide)]
  rfl
theorem lhs_1 (i : S2000x7.Idx) (q : dot_S2000x40_S40x7_S2000x7_1_0_0_1_n_n.contr.Idx) :
    (dot_S2000x40_S40x7_S2000x7_1_0_0_1_n_n.lhsIdx i q 1).val = (q ⟨0, by decide⟩).val :=
  dot_S2000x40_S40x7_S2000x7_1_0_0_1_n_n.lhsIdx_val_of_single rfl i q
theorem rhs_0 (i : S2000x7.Idx) (q : dot_S2000x40_S40x7_S2000x7_1_0_0_1_n_n.contr.Idx) :
    (dot_S2000x40_S40x7_S2000x7_1_0_0_1_n_n.rhsIdx i q 0).val = (q ⟨0, by decide⟩).val :=
  dot_S2000x40_S40x7_S2000x7_1_0_0_1_n_n.rhsIdx_val_of_single rfl i q
theorem rhs_1 (i : S2000x7.Idx) (q : dot_S2000x40_S40x7_S2000x7_1_0_0_1_n_n.contr.Idx) :
    (dot_S2000x40_S40x7_S2000x7_1_0_0_1_n_n.rhsIdx i q 1).val = (i 1).val := by
  unfold DotDims.rhsIdx
  rw [dif_neg (show ¬(1 : Fin S40x7.rank) ∈ dot_S2000x40_S40x7_S2000x7_1_0_0_1_n_n.rhsBatch by decide),
    dif_pos (show (1 : Fin S40x7.rank) ∈ dot_S2000x40_S40x7_S2000x7_1_0_0_1_n_n.rhsNonContracting by decide)]
  rfl

/-- The body's result at row p, class q: the sum over the forty hidden units of the rectified, kept entry times the
    weight. -/
theorem pay_apply (x0 : Vec Ideal S2000x40 .f32) (b : Vec Ideal S40 .f32) (x2 : Vec Ideal S2000x40 .f32)
    (w : Vec Ideal S40x7 .f32) (p : Fin 2000) (q : Fin 7) :
    k1_pay1 x0 b x2 w (ix2 p q)
      = ∑ k : Fin 40, (max (x0 (ix2 p k) + b (ix1 k)) (Ideal.ofBits .f32 0x00000000#32) * Cert.Spec.keep (x2 (ix2 p k)))
          * w (ix2 k q) := by
  unfold k1_pay1
  refine (Ideal.matmul_constant_zero_apply dot_S2000x40_S40x7_S2000x7_1_0_0_1_n_n none _ _ (ix2 p q)).trans ?_
  rw [← Equiv.sum_comp (contrEquiv1 dot_S2000x40_S40x7_S2000x7_1_0_0_1_n_n 40 rfl rfl).symm]
  refine Finset.sum_congr rfl fun k _ => ?_
  have hk := contrEquiv1_symm_val dot_S2000x40_S40x7_S2000x7_1_0_0_1_n_n 40 rfl rfl k
  have hl : dot_S2000x40_S40x7_S2000x7_1_0_0_1_n_n.lhsIdx (ix2 p q)
      ((contrEquiv1 dot_S2000x40_S40x7_S2000x7_1_0_0_1_n_n 40 rfl rfl).symm k) = ix2 p k :=
    funext fun a => Fin.ext (by
      match a with
      | ⟨0, _⟩ => exact lhs_0 _ _
      | ⟨1, _⟩ => exact (lhs_1 _ _).trans hk)
  have hr : dot_S2000x40_S40x7_S2000x7_1_0_0_1_n_n.rhsIdx (ix2 p q)
      ((contrEquiv1 dot_S2000x40_S40x7_S2000x7_1_0_0_1_n_n 40 rfl rfl).symm k) = ix2 k q :=
    funext fun a => Fin.ext (by
      match a with
      | ⟨0, _⟩ => exact (rhs_0 _ _).trans hk
      | ⟨1, _⟩ => exact rhs_1 _ _)
  rw [hl, hr, hid_apply, truncf_apply]

/-- Entry (p, q) of a point's result, when row p of the two row-blocked inputs is row r of their arrays and the bias
    and the weights are their arrays: entry (r, q) of the second dense product of the hidden layer. -/
theorem block_apply (A : FVec Ideal ⟨2, ![100000, 40]⟩ .f32) (B : FVec Ideal ⟨1, ![40]⟩ .f32)
    (U : FVec Ideal ⟨2, ![100000, 40]⟩ .f32) (W : FVec Ideal ⟨2, ![40, 7]⟩ .f32)
    (x0 : Vec Ideal S2000x40 .f32) (b : Vec Ideal S40 .f32) (x2 : Vec Ideal S2000x40 .f32) (w : Vec Ideal S40x7 .f32)
    (r : Fin 100000) (p : Fin 2000) (q : Fin 7)
    (h0 : ∀ k : Fin 40, x0 (ix2 p k) = A (ix2 r k)) (h2 : ∀ k : Fin 40, x2 (ix2 p k) = U (ix2 r k))
    (hb : ∀ k : Fin 40, b (ix1 k) = B (ix1 k)) (hw : ∀ k : Fin 40, w (ix2 k q) = W (ix2 k q)) :
    k1_pay1 x0 b x2 w (ix2 p q) = Cert.Spec.dense2 (Cert.Spec.hidden A B U) W (ix2 r q) := by
  rw [pay_apply]
  unfold Cert.Spec.dense2 Cert.Spec.hidden
  refine Finset.sum_congr rfl fun k _ => ?_
  rw [h0, h2, hb, hw]

/-! ## From the blocks to the array -/

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the two row-blocked inputs move with the output's row block, every column
    index is 0, and the bias and the weights are the whole array at every point. -/
theorem idx_facts : ∀ t : Fin cfg1.N, win1_0.index t (0 : Fin 2) = win1_4.index t (0 : Fin 2)
    ∧ win1_0.index t (1 : Fin 2) = 0
    ∧ win1_2.index t (0 : Fin 2) = win1_4.index t (0 : Fin 2)
    ∧ win1_2.index t (1 : Fin 2) = 0
    ∧ win1_1.index t (0 : Fin 1) = 0
    ∧ win1_3.index t (0 : Fin 2) = 0
    ∧ win1_3.index t (1 : Fin 2) = 0
    ∧ win1_4.index t (1 : Fin 2) = 0
    ∧ win1_4.index t (0 : Fin 2) ≤ 49 :=
  (by decide +kernel : ∀ t : Fin grid1.N, _)

/-- Every row block is some point's. -/
theorem idx_onto : ∀ q0 : Fin 50, ∃ t : Fin cfg1.N, win1_4.index t = ![q0.val, 0] :=
  (by decide +kernel : ∀ q0 : Fin 50, ∃ t : Fin grid1.N, win1_4.index t = ![q0.val, 0])

-- the TensorCore's buffer contents when the region is entered
variable (V : (c : Dev nD) → (b : Ref sig .tc) → Buf (Elt Ideal) ((c : Thread nD τ).loc b))

/-- What point t writes back is rows 2000 t … 2000 t + 1999 of the second dense product of the hidden layer. -/
theorem flushed_eq (c : Dev nD) (t : Fin cfg1.N) :
    (dat1 (F := Ideal) V c).flushed 4 t = ((cfg1.win 4).blk t).view.read (Elt Ideal)
      (Cert.Spec.dense2 (Cert.Spec.hidden (V c main_v7) (V c main_arg5) (V c main_arg8)) (V c main_arg6)) := by
  show (cfg1.win 4).cut (grid1.coords t) ((dat1 V c).after 4 t) = _
  rw [after1_4]
  unfold out1_4
  rw [View.canon_unit_zero hz]
  simp only [View.ld_unit_zero (S := S2000x40) hz, View.ld_unit_zero (S := S40) hz1, View.ld_unit_zero (S := S40x7) hz]
  obtain ⟨e0, e1, e2, e3, e4, e5, e6, e7, e8⟩ := idx_facts t
  funext j
  have hp : (j 0).val < 2000 := (j 0).isLt
  have hq : (j 1).val < 7 := (j 1).isLt
  have hj : (j : S2000x7.Idx) = ix2 (⟨(j 0).val, hp⟩ : Fin 2000) (⟨(j 1).val, hq⟩ : Fin 7) :=
    eq_ix2 (n0 := 2000) (n1 := 7) j
  show k1_pay1 (iblk1 V c 0 t) (iblk1 V c 1 t) (iblk1 V c 2 t) (iblk1 V c 3 t) j
    = Cert.Spec.dense2 (Cert.Spec.hidden (V c main_v7) (V c main_arg5) (V c main_arg8)) (V c main_arg6)
        (((cfg1.win 4).blk t).view.emb j)
  refine (congrArg (k1_pay1 (iblk1 V c 0 t) (iblk1 V c 1 t) (iblk1 V c 2 t) (iblk1 V c 3 t)) hj).trans ?_
  refine (block_apply (V c main_v7) (V c main_arg5) (V c main_arg8) (V c main_arg6)
    (iblk1 V c 0 t) (iblk1 V c 1 t) (iblk1 V c 2 t) (iblk1 V c 3 t)
    ⟨win1_4.index t (0 : Fin 2) * 2000 + (j 0).val, by omega⟩ ⟨(j 0).val, hp⟩ ⟨(j 1).val, hq⟩ ?_ ?_ ?_ ?_).trans ?_
  · intro k
    show V c main_v7 (((cfg1.win 0).blk t).view.emb (ix2 (⟨(j 0).val, hp⟩ : Fin 2000) k)) = _
    refine congrArg (V c main_v7) (funext fun a => Fin.ext ?_)
    match a with
    | ⟨0, _⟩ => show win1_0.index t (0 : Fin 2) * 2000 + 1 * (j 0).val = win1_4.index t (0 : Fin 2) * 2000 + (j 0).val; omega
    | ⟨1, _⟩ => show win1_0.index t (1 : Fin 2) * 40 + 1 * k.val = k.val; omega
  · intro k
    show V c main_arg8 (((cfg1.win 2).blk t).view.emb (ix2 (⟨(j 0).val, hp⟩ : Fin 2000) k)) = _
    refine congrArg (V c main_arg8) (funext fun a => Fin.ext ?_)
    match a with
    | ⟨0, _⟩ => show win1_2.index t (0 : Fin 2) * 2000 + 1 * (j 0).val = win1_4.index t (0 : Fin 2) * 2000 + (j 0).val; omega
    | ⟨1, _⟩ => show win1_2.index t (1 : Fin 2) * 40 + 1 * k.val = k.val; omega
  · intro k
    show V c main_arg5 (((cfg1.win 1).blk t).view.emb (ix1 k)) = _
    refine congrArg (V c main_arg5) (funext fun a => Fin.ext ?_)
    match a with
    | ⟨0, _⟩ => show win1_1.index t (0 : Fin 1) * 40 + 1 * k.val = k.val; omega
  · intro k
    show V c main_arg6 (((cfg1.win 3).blk t).view.emb (ix2 k (⟨(j 1).val, hq⟩ : Fin 7))) = _
    refine congrArg (V c main_arg6) (funext fun a => Fin.ext ?_)
    match a with
    | ⟨0, _⟩ => show win1_3.index t (0 : Fin 2) * 40 + 1 * k.val = k.val; omega
    | ⟨1, _⟩ => show win1_3.index t (1 : Fin 2) * 7 + 1 * (j 1).val = (j 1).val; omega
  · refine congrArg (Cert.Spec.dense2 (Cert.Spec.hidden (V c main_v7) (V c main_arg5) (V c main_arg8)) (V c main_arg6))
      (funext fun a => Fin.ext ?_)
    match a with
    | ⟨0, _⟩ => show win1_4.index t (0 : Fin 2) * 2000 + (j 0).val = win1_4.index t (0 : Fin 2) * 2000 + 1 * (j 0).val; omega
    | ⟨1, _⟩ => show (j 1).val = win1_4.index t (1 : Fin 2) * 7 + 1 * (j 1).val; omega

/-- An index of the output array is in point t's block iff each coordinate is in the block's range on its axis. -/
theorem mem_blk (t : Fin cfg1.N) (i : S100000x7.Idx) :
    i ∈ ((cfg1.win 4).blk t).view.set ↔ ∀ a : Fin 2, win1_4.index t a * S2000x7.size a ≤ (i a).val
      ∧ (i a).val < win1_4.index t a * S2000x7.size a + S2000x7.size a := by
  show i ∈ ((View.whole main_v8).slice (win1_4.rect t)).set ↔ _
  rw [View.set_slice_whole, Rect.mem_set_unit]
  exact Iff.rfl

/-- The fifty row blocks tile the rows: row r is in the block of the point r / 2000. -/
theorem cover (i : S100000x7.Idx) :
    ∃ t : Fin cfg1.N, (cfg1.win 4).flush t = true ∧ i ∈ ((cfg1.win 4).blk t).view.set := by
  have hi0 : (i 0).val < 100000 := (i 0).isLt
  have hi1 : (i 1).val < 7 := (i 1).isLt
  obtain ⟨t, ht⟩ := idx_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 7 ≤ (i 1).val ∧ (i 1).val < win1_4.index t (1 : Fin 2) * 7 + 7
    omega

/-- The output array of the second region is the second dense product of the hidden layer, of the arrays as the
    region finds them. -/
theorem final (c : Dev nD) :
    (dat1 (F := Ideal) V c).arrAt 4 cfg1.N
      = Cert.Spec.dense2 (Cert.Spec.hidden (V c main_v7) (V c main_arg5) (V c main_arg8)) (V c main_arg6) :=
  (dat1 (F := Ideal) V c).arrAt_eq_of_cover 4 _ (fun t _ => flushed_eq V c t) cover

end Cert.KernelIdeal.Region1

end
-- ==== Proof.Region2.lean ====
/-
  The third region's output array after its fifty grid points.

  Point t takes rows 2000 t … 2000 t + 1999 of the aggregated second layer, adds the bias row, subtracts each row's
  maximum over the seven classes, and subtracts the logarithm of the row's sum of exponentials. Each row's result
  depends on that row only, and the fifty row blocks tile the rows, so the array ends as the row-wise log-softmax of
  the biased aggregate.

  The body's value at an entry (p, q) of a block is read operation by operation: the bias row is spread over the rows,
  the two reductions over the class axis are, at row p, the fold of max from minus infinity and the sum over that row's
  seven entries, and each reduced column is spread back over the classes. Entry (p, q) of point t's block is entry
  (2000 t + p, q) of the array, and the aggregate's block moves with the output's, so the entry is the specification
  there. Row r lies in the block of point r / 2000.
-/
import proofs.«415233_j2680059592878_3_alg».proof.Proof.Gen.KernelIdeal.Frame
import proofs.«415233_j2680059592878_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## Two layout readings: a column of row values, and that column spread over the classes -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The index of a row's `k`-th class, as the lane reduction names it: the row's index with `k` put on the class axis. -/
theorem lift_row (h : S2000x7.Reduces [1] S2000) (p : Fin 2000) (k : Fin 7) : h.lift (ix1 p) k = ix2 p k := by
  funext a
  match a with
  | ⟨0, _⟩ => exact Fin.ext rfl
  | ⟨1, _⟩ => exact Fin.ext rfl

/-! ## The body's arithmetic at one entry -/

/-- A row's seven biased values. -/
abbrev rowLogits (x0 : Vec Ideal S2000x7 .f32) (b : Vec Ideal S7 .f32) (p : Fin 2000) : Fin 7 → EReal :=
  fun j => x0 (ix2 p j) + b (ix1 j)

/-- The biased block: the aggregate's block plus the bias row on every row. -/
abbrev biased (x0 : Vec Ideal S2000x7 .f32) (b : Vec Ideal S7 .f32) : FVec Ideal S2000x7 .f32 :=
  addf (shapeCast S2000x7 x0 shapeCasts_S2000x7_S2000x7)
    (broadcastTo S2000x7 (shapeCast S1x7 b shapeCasts_S7_S1x7) broadcasts_S1x7_S2000x7)

theorem biased_apply (x0 : Vec Ideal S2000x7 .f32) (b : Vec Ideal S7 .f32) (p : Fin 2000) (q : Fin 7) :
    biased x0 b (ix2 p q) = rowLogits x0 b p q := by
  show addf _ _ (ix2 p q) = _
  rw [addf_apply, shapeCast_self, broadcastTo_1b_ab_apply, shapeCast_a_1a_apply]

/-- Each row's maximum over the seven classes. -/
abbrev blockMax (x0 : Vec Ideal S2000x7 .f32) (b : Vec Ideal S7 .f32) : FVec Ideal S2000 .f32 :=
  multiReduction .maximumf [1] S2000 (biased x0 b) 0xFF800000#32 reduces_S2000x7_S2000 (.inl rfl) rfl

theorem blockMax_apply (x0 : Vec Ideal S2000x7 .f32) (b : Vec Ideal S7 .f32) (p : Fin 2000) :
    blockMax x0 b (ix1 p) = Cert.Spec.rowMax (rowLogits x0 b p) := by
  refine (Ideal.multiReduction_maximumf_single (φ := .f32) _ _ _ _ _ _).trans ?_
  have e : (fun k : Fin 7 => biased x0 b (reduces_S2000x7_S2000.lift (ix1 p) k)) = rowLogits x0 b p :=
    funext fun k => (congrArg (biased x0 b) (lift_row _ p k)).trans (biased_apply x0 b p k)
  exact congrArg (fun f : Fin 7 → EReal => (Finset.univ : Finset (Fin 7)).fold max (Ideal.ofBits .f32 0xFF800000#32) f) e

/-- The block with each row's maximum taken off. -/
abbrev centered (x0 : Vec Ideal S2000x7 .f32) (b : Vec Ideal S7 .f32) : FVec Ideal S2000x7 .f32 :=
  subf (biased x0 b)
    (broadcastTo S2000x7 (shapeCast S2000x1 (blockMax x0 b) shapeCasts_S2000_S2000x1) broadcasts_S2000x1_S2000x7)

theorem centered_apply (x0 : Vec Ideal S2000x7 .f32) (b : Vec Ideal S7 .f32) (p : Fin 2000) (q : Fin 7) :
    centered x0 b (ix2 p q) = rowLogits x0 b p q - Cert.Spec.rowMax (rowLogits x0 b p) := by
  show subf _ _ (ix2 p q) = _
  rw [subf_apply, biased_apply, broadcastTo_a1_ab_apply, shapeCast_a_a1_apply, blockMax_apply]

/-- Each row's sum of exponentials of the centred values. -/
abbrev blockSum (x0 : Vec Ideal S2000x7 .f32) (b : Vec Ideal S7 .f32) : FVec Ideal S2000 .f32 :=
  multiReduction .add [1] S2000 (exp (centered x0 b)) 0x00000000#32 reduces_S2000x7_S2000 (.inl rfl) rfl

theorem blockSum_apply (x0 : Vec Ideal S2000x7 .f32) (b : Vec Ideal S7 .f32) (p : Fin 2000) :
    blockSum x0 b (ix1 p)
      = ∑ j : Fin 7, Ideal.exp (rowLogits x0 b p j - Cert.Spec.rowMax (rowLogits x0 b p)) := by
  refine (Ideal.multiReduction_add_single (φ := .f32) _ _ _ _ _ _).trans ?_
  show ∑ k : Fin 7, Ideal.exp (centered x0 b (reduces_S2000x7_S2000.lift (ix1 p) k)) = _
  exact Finset.sum_congr rfl fun k _ =>
    congrArg Ideal.exp ((congrArg (centered x0 b) (lift_row _ p k)).trans (centered_apply x0 b p k))

/-- THE BODY AT AN ENTRY: the centred value less the logarithm of the row's sum of exponentials. -/
theorem pay_apply (x0 : Vec Ideal S2000x7 .f32) (b : Vec Ideal S7 .f32) (p : Fin 2000) (q : Fin 7) :
    k2_pay1 x0 b (ix2 p q)
      = (rowLogits x0 b p q - Cert.Spec.rowMax (rowLogits x0 b p))
        - Ideal.log (∑ j : Fin 7, Ideal.exp (rowLogits x0 b p j - Cert.Spec.rowMax (rowLogits x0 b p))) := by
  show subf (centered x0 b)
      (broadcastTo S2000x7 (log (shapeCast S2000x1 (blockSum x0 b) shapeCasts_S2000_S2000x1)) broadcasts_S2000x1_S2000x7)
      (ix2 p q) = _
  rw [subf_apply, centered_apply, broadcastTo_a1_ab_apply]
  show _ - Ideal.log (shapeCast S2000x1 (blockSum x0 b) shapeCasts_S2000_S2000x1 (ix2 p (0 : Fin 1))) = _
  rw [shapeCast_a_a1_apply, blockSum_apply]

/-! ## One entry of a block against the specification -/

/-- A block entry whose row of the aggregate's block is row `row i` of the array, whose bias block is the bias, and
    whose class is `col i`, is the specification at `i`: the row's result depends on that row only. -/
theorem pay_eq_spec (x0 : Vec Ideal S2000x7 .f32) (b : Vec Ideal S7 .f32)
    (A : FVec Ideal ⟨2, ![100000, 7]⟩ .f32) (B : FVec Ideal ⟨1, ![7]⟩ .f32) (j : S2000x7.Idx) (i : S100000x7.Idx)
    (hrow : ∀ k : Fin 7, x0 (ix2 ⟨(j 0).val, idx2_lt0 j⟩ k) = A (ix2 (Cert.Spec.row i) k))
    (hbias : ∀ k : Fin 7, b (ix1 k) = B (ix1 k))
    (hcol : (i 1).val = (j 1).val) :
    k2_pay1 x0 b j = Cert.Spec.lsm A B i := by
  obtain ⟨p, q, rfl⟩ : ∃ (p : Fin 2000) (q : Fin 7), j = ix2 p q := ⟨j 0, j 1, eq_ix2 j⟩
  have hl : rowLogits x0 b p = Cert.Spec.logits A B (Cert.Spec.row i) := by
    funext k
    show x0 (ix2 p k) + b (ix1 k) = A (ix2 (Cert.Spec.row i) k) + B (ix1 k)
    rw [← hrow k, ← hbias k]
  have hq : Cert.Spec.col i = q := Fin.ext hcol
  rw [pay_apply, hl]
  unfold Cert.Spec.lsm
  rw [hq]

/-! ## From the blocks to the array -/

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The windows' index maps over the grid: the aggregate's row block moves with the output's, both take every class,
    and the bias is the whole row at every point. -/
theorem idx_facts : ∀ t : Fin cfg2.N, win2_0.index t (0 : Fin 2) = win2_2.index t (0 : Fin 2)
    ∧ win2_0.index t (1 : Fin 2) = 0
    ∧ win2_2.index t (1 : Fin 2) = 0
    ∧ win2_1.index t (0 : Fin 1) = 0 :=
  (by decide +kernel : ∀ t : Fin grid2.N, _)

/-- Every row block is some point's. -/
theorem idx_onto : ∀ q0 : Fin 50, ∃ t : Fin cfg2.N, win2_2.index t = ![q0.val, 0] :=
  (by decide +kernel : ∀ q0 : Fin 50, ∃ t : Fin grid2.N, win2_2.index t = ![q0.val, 0])

/-- WHAT POINT `t` WRITES BACK is block `t` of the log-softmax of the biased aggregate. -/
theorem flushed_eq (c : Dev nD) (t : Fin cfg2.N) :
    (dat2 (F := Ideal) V c).flushed 2 t
      = ((cfg2.win 2).blk t).view.read (Elt Ideal) (Cert.Spec.lsm (V c main_v15) (V c main_arg7)) := by
  show (cfg2.win 2).cut (grid2.coords t) ((dat2 (F := Ideal) V c).after 2 t) = _
  rw [after2_2]
  unfold out2_2
  rw [View.canon_unit_zero hz2]
  simp only [View.ld_unit_zero (S := S2000x7) hz2, View.ld_unit_zero (S := S7) hz1]
  obtain ⟨e0, e1, e2, e3⟩ := idx_facts t
  funext j
  show k2_pay1 (iblk2 V c 0 t) (iblk2 V c 1 t) j
      = Cert.Spec.lsm (V c main_v15) (V c main_arg7) (((cfg2.win 2).blk t).view.emb j)
  refine pay_eq_spec (iblk2 V c 0 t) (iblk2 V c 1 t) (V c main_v15) (V c main_arg7) j _ (fun k => ?_) (fun k => ?_) ?_
  · show V c main_v15 (((cfg2.win 0).blk t).view.emb (ix2 ⟨(j 0).val, idx2_lt0 j⟩ k)) = V c main_v15 _
    refine congrArg (V c main_v15) (funext fun a => Fin.ext ?_)
    match a with
    | ⟨0, _⟩ =>
      show win2_0.index t (0 : Fin 2) * 2000 + 1 * (j 0).val = win2_2.index t (0 : Fin 2) * 2000 + 1 * (j 0).val
      omega
    | ⟨1, _⟩ =>
      show win2_0.index t (1 : Fin 2) * 7 + 1 * k.val = k.val
      omega
  · show V c main_arg7 (((cfg2.win 1).blk t).view.emb (ix1 k)) = V c main_arg7 (ix1 k)
    refine congrArg (V c main_arg7) (funext fun a => Fin.ext ?_)
    match a with
    | ⟨0, _⟩ =>
      show win2_1.index t (0 : Fin 1) * 7 + 1 * k.val = k.val
      omega
  · show win2_2.index t (1 : Fin 2) * 7 + 1 * (j 1).val = (j 1).val
    omega

/-- An index of the array is in point `t`'s block iff each coordinate is in the block's range on its axis. -/
theorem mem_blk (t : Fin cfg2.N) (i : S100000x7.Idx) :
    i ∈ ((cfg2.win 2).blk t).view.set ↔ ∀ a : Fin 2, win2_2.index t a * S2000x7.size a ≤ (i a).val
      ∧ (i a).val < win2_2.index t a * S2000x7.size a + S2000x7.size a := by
  show i ∈ ((View.whole main_v16).slice (win2_2.rect t)).set ↔ _
  rw [View.set_slice_whole, Rect.mem_set_unit]
  exact Iff.rfl

/-- The fifty row blocks tile the rows: row `r` lies in the block of point `r / 2000`. -/
theorem cover (i : S100000x7.Idx) :
    ∃ t : Fin cfg2.N, (cfg2.win 2).flush t = true ∧ i ∈ ((cfg2.win 2).blk t).view.set := by
  have hi0 : (i 0).val < 100000 := (i 0).isLt
  have hi1 : (i 1).val < 7 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 7 ≤ (i 1).val ∧ (i 1).val < win2_2.index t (1 : Fin 2) * 7 + 7
    omega

/-- The output array of the third region is the row-wise log-softmax of the biased second aggregate, of the arrays as
    the region finds them. -/
theorem final (c : Dev nD) :
    (dat2 (F := Ideal) V c).arrAt 2 cfg2.N = Cert.Spec.lsm (V c main_v15) (V c main_arg7) :=
  (dat2 (F := Ideal) V c).arrAt_eq_of_cover 2 (Cert.Spec.lsm (V c main_v15) (V c main_arg7))
    (fun t _ => flushed_eq V c t) cover

end Cert.KernelIdeal.Region2

end
-- ==== Proof.Take.lean ====
/-
  Where every edge's source index is a valid row index, the guarded gather is the plain gather.

  A source index s with -100000 ≤ s < 100000 wraps (adding 100000 when s < 0) to a start index in 0 … 99999, so
  the guard's two comparisons both hold on every edge, the and-reduce over the one-element index vector is 1, and the
  select takes the gathered row on every element: the fill value is never read.
-/
import proofs.«415233_j2680059592878_3_alg».proof.Proof.KernelTerms
import Idealize.ShloMosaic.Lib.StableHlo.Predicate
import Idealize.ShloMosaic.Lib.ValueIdx
import Idealize.ShloMosaic.Lib.Pipeline.Value

noncomputable section

namespace Cert.KernelIdeal.Take

open Cert.KernelIdeal Cert.KernelIdeal.Gen Cert.KernelIdeal.Terms Idealize.ShloMosaic Idealize.ShloMosaic.ValueIdx

/-- A left fold by `and`, started at 1, over words that are all 1 is 1. -/
theorem foldl_andi_one {ι : Type} (g : ι → BitVec 1) (hg : ∀ n, g n = 1#1) :
    ∀ l : List ι, l.foldl (fun r n => IntOp.andi r (g n)) 1#1 = 1#1
  | [] => rfl
  | a :: l => by
    have h11 : IntOp.andi (1#1 : BitVec 1) 1#1 = 1#1 := by decide
    rw [List.foldl_cons, hg a, h11]
    exact foldl_andi_one g hg l

/-- ONE EDGE. A source index s with -100000 ≤ s < 100000, wrapped (100000 added when s < 0; the sum does not
    overflow 32 signed bits), lies in 0 … 99999, so both comparisons of the guard hold and their `and` is 1. -/
theorem guard_word (s : BitVec 32) (h0 : (-100000 : Int) ≤ s.toInt) (h1 : s.toInt < 100000) :
    IntOp.andi
      (IntOp.cmpi .sge (Scalar.select (IntOp.cmpi .slt s 0#32) (IntOp.addi s 100000#32) s) 0#32)
      (IntOp.cmpi .sle (Scalar.select (IntOp.cmpi .slt s 0#32) (IntOp.addi s 100000#32) s) 99999#32) = 1#1 := by
  have hz : (0#32 : BitVec 32).toInt = 0 := by decide
  have hk : (100000#32 : BitVec 32).toInt = 100000 := by decide
  have hm : (99999#32 : BitVec 32).toInt = 99999 := by decide
  -- the wrapped index, as a signed value, lies in 0 … 99999
  have hw : ∀ w : BitVec 32, (0 : Int) ≤ w.toInt → w.toInt ≤ 99999 →
      IntOp.andi (IntOp.cmpi .sge w 0#32) (IntOp.cmpi .sle w 99999#32) = 1#1 := by
    intro w a b
    have e1 : IntOp.cmpi .sge w 0#32 = 1#1 := by
      simp only [IntOp.cmpi, BitVec.sle, hz, StableHlo.Predicate.ofBool_eq_one_iff, decide_eq_true_eq]; exact a
    have e2 : IntOp.cmpi .sle w 99999#32 = 1#1 := by
      simp only [IntOp.cmpi, BitVec.sle, hm, StableHlo.Predicate.ofBool_eq_one_iff, decide_eq_true_eq]; exact b
    rw [e1, e2]; decide
  by_cases hs : s.toInt < 0
  · have hc : IntOp.cmpi .slt s 0#32 = 1#1 := by
      simp only [IntOp.cmpi, BitVec.slt, hz, StableHlo.Predicate.ofBool_eq_one_iff, decide_eq_true_eq]; exact hs
    have hsel : Scalar.select (IntOp.cmpi .slt s 0#32) (IntOp.addi s 100000#32) s = s + 100000#32 := by
      rw [hc]; exact select_one _ _
    have hv : (s + 100000#32).toInt = s.toInt + 100000 := by
      rw [BitVec.toInt_add, hk]
      exact Int.bmod_eq_of_le_mul_two (by omega) (by omega)
    rw [hsel]
    exact hw _ (by omega) (by omega)
  · have hc : IntOp.cmpi .slt s 0#32 = 0#1 := by
      apply eq_zero_of_ne_one
      simp only [IntOp.cmpi, BitVec.slt, hz, StableHlo.Predicate.ofBool_eq_one_iff, decide_eq_true_eq]; exact hs
    have hsel : Scalar.select (IntOp.cmpi .slt s 0#32) (IntOp.addi s 100000#32) s = s := by
      rw [hc]; exact select_zero _ _
    rw [hsel]
    exact hw _ (by omega) (by omega)

/-- The guard's two comparisons, and-ed, at one element of the index column: 1 when every source index is in range. -/
theorem guard_at (src : IVec S3200000 32) (h : SrcInRange src) (i : S3200000x1.Idx) :
    andi (cmpi .sge (wrapIdx src) (broadcastInDim S3200000x1 ![] bcast_S_S3200000x1 (constantI S_ 32 0#32)))
      (cmpi .sle (wrapIdx src) (broadcastInDim S3200000x1 ![0, 1] bcast_S1x1_S3200000x1_0_1
        (broadcastInDim S1x1 ![1] bcast_S1_S1x1_1 (constantI S1 32 99999#32)))) i = 1#1 := by
  simp only [andi, cmpi, wrapIdx, select, addi, broadcastInDim, constantI]
  exact guard_word _ (h _).1 (h _).2

/-- With every source index in range the guard holds on every edge. -/
theorem inRange_wrapIdx (src : IVec S3200000 32) (h : SrcInRange src) : inRange (wrapIdx src) = fun _ => 1#1 := by
  funext e
  unfold inRange Host.reduce
  exact foldl_andi_one _ (fun n => guard_at src h _) _

/-- With every source index in range the guarded gather of a 40-column array is the plain gather. -/
theorem take40_eq (s : FVec Ideal S100000x40 .f32) (src : IVec S3200000 32) (h : SrcInRange src) :
    take40 s src = Host.gather gather_S100000x40_S3200000x1_S3200000x40_1_0_n_n_0_1_140 s (wrapIdx src) := by
  unfold take40
  rw [inRange_wrapIdx src h]
  funext j
  exact select_one _ _

/-- With every source index in range the guarded gather of a 7-column array is the plain gather. -/
theorem take7_eq (s : FVec Ideal S100000x7 .f32) (src : IVec S3200000 32) (h : SrcInRange src) :
    take7 s src = Host.gather gather_S100000x7_S3200000x1_S3200000x7_1_0_n_n_0_1_17 s (wrapIdx src) := by
  unfold take7
  rw [inRange_wrapIdx src h]
  funext j
  exact select_one _ _

end Cert.KernelIdeal.Take

end
-- ==== Proof.KernelValue.lean ====
/-
  The kernel program's result array, as the specification's stages composed around the edge aggregation.

  The contents at each boundary of the program are read back in order. The first region leaves the dense product of
  the launch's features and first weights. The first two host stretches leave the aggregation, over the guarded
  gather, of that product by the launch's source indices, destinations and edge weights. The second region, entered
  with that aggregate and the launch's bias, uniform draws and second weights, leaves the second dense product of the
  hidden layer. The next two stretches aggregate it the same way, and the third region leaves the row-wise
  log-softmax of the biased aggregate. No stretch and no region writes an argument array, so each region finds the
  arguments as launched. Where every source index is a valid row index the guarded gather is the plain gather, and
  the aggregation is the one both programs share.
-/
import proofs.«415233_j2680059592878_3_alg».proof.Proof.KernelRun
import proofs.«415233_j2680059592878_3_alg».proof.Proof.KernelHost
import proofs.«415233_j2680059592878_3_alg».proof.Proof.Region0
import proofs.«415233_j2680059592878_3_alg».proof.Proof.Region1
import proofs.«415233_j2680059592878_3_alg».proof.Proof.Region2
import proofs.«415233_j2680059592878_3_alg».proof.Proof.Take

set_option maxRecDepth 16384

noncomputable section

namespace Cert.KernelIdeal.ValueChain

open Cert.KernelIdeal Cert.KernelIdeal.Gen Cert.KernelIdeal.Terms Cert.KernelIdeal.HostRead
open Idealize.ShloMosaic Idealize.ShloMosaic.TcCoe Idealize.SL.Sem

variable (m : (ℓ : Loc nD τ sig) → Buf (Elt Ideal) ℓ) (ρ : Dev nD → PrngReg)

/-! ## The arguments, from the launch to each boundary -/

theorem W1_arg1 (c : Dev nD) : W1 m ρ c (Proc.devRef .tc main_arg1) = m ((c : Thread nD τ).loc main_arg1) :=
  (W1_of_ne m ρ c main_arg1 (by decide)).trans rfl
theorem W2_arg1 (c : Dev nD) : W2 m ρ c (Proc.devRef .tc main_arg1) = m ((c : Thread nD τ).loc main_arg1) :=
  (keep1_arg1 (W1 m ρ c)).trans (W1_arg1 m ρ c)
theorem W3_arg1 (c : Dev nD) : W3 m ρ c (Proc.devRef .tc main_arg1) = m ((c : Thread nD τ).loc main_arg1) :=
  (keep11_arg1 (W2 m ρ c)).trans (W2_arg1 m ρ c)
theorem W1_arg2 (c : Dev nD) : W1 m ρ c (Proc.devRef .tc main_arg2) = m ((c : Thread nD τ).loc main_arg2) :=
  (W1_of_ne m ρ c main_arg2 (by decide)).trans rfl
theorem W2_arg2 (c : Dev nD) : W2 m ρ c (Proc.devRef .tc main_arg2) = m ((c : Thread nD τ).loc main_arg2) :=
  (keep1_arg2 (W1 m ρ c)).trans (W1_arg2 m ρ c)
theorem W3_arg2 (c : Dev nD) : W3 m ρ c (Proc.devRef .tc main_arg2) = m ((c : Thread nD τ).loc main_arg2) :=
  (keep11_arg2 (W2 m ρ c)).trans (W2_arg2 m ρ c)
theorem W1_arg3 (c : Dev nD) : W1 m ρ c (Proc.devRef .tc main_arg3) = m ((c : Thread nD τ).loc main_arg3) :=
  (W1_of_ne m ρ c main_arg3 (by decide)).trans rfl
theorem W2_arg3 (c : Dev nD) : W2 m ρ c (Proc.devRef .tc main_arg3) = m ((c : Thread nD τ).loc main_arg3) :=
  (keep1_arg3 (W1 m ρ c)).trans (W1_arg3 m ρ c)
theorem W3_arg3 (c : Dev nD) : W3 m ρ c (Proc.devRef .tc main_arg3) = m ((c : Thread nD τ).loc main_arg3) :=
  (keep11_arg3 (W2 m ρ c)).trans (W2_arg3 m ρ c)
theorem W1_arg5 (c : Dev nD) : W1 m ρ c (Proc.devRef .tc main_arg5) = m ((c : Thread nD τ).loc main_arg5) :=
  (W1_of_ne m ρ c main_arg5 (by decide)).trans rfl
theorem W2_arg5 (c : Dev nD) : W2 m ρ c (Proc.devRef .tc main_arg5) = m ((c : Thread nD τ).loc main_arg5) :=
  (keep1_arg5 (W1 m ρ c)).trans (W1_arg5 m ρ c)
theorem W3_arg5 (c : Dev nD) : W3 m ρ c (Proc.devRef .tc main_arg5) = m ((c : Thread nD τ).loc main_arg5) :=
  (keep11_arg5 (W2 m ρ c)).trans (W2_arg5 m ρ c)
theorem W1_arg6 (c : Dev nD) : W1 m ρ c (Proc.devRef .tc main_arg6) = m ((c : Thread nD τ).loc main_arg6) :=
  (W1_of_ne m ρ c main_arg6 (by decide)).trans rfl
theorem W2_arg6 (c : Dev nD) : W2 m ρ c (Proc.devRef .tc main_arg6) = m ((c : Thread nD τ).loc main_arg6) :=
  (keep1_arg6 (W1 m ρ c)).trans (W1_arg6 m ρ c)
theorem W3_arg6 (c : Dev nD) : W3 m ρ c (Proc.devRef .tc main_arg6) = m ((c : Thread nD τ).loc main_arg6) :=
  (keep11_arg6 (W2 m ρ c)).trans (W2_arg6 m ρ c)
theorem W1_arg7 (c : Dev nD) : W1 m ρ c (Proc.devRef .tc main_arg7) = m ((c : Thread nD τ).loc main_arg7) :=
  (W1_of_ne m ρ c main_arg7 (by decide)).trans rfl
theorem W2_arg7 (c : Dev nD) : W2 m ρ c (Proc.devRef .tc main_arg7) = m ((c : Thread nD τ).loc main_arg7) :=
  (keep1_arg7 (W1 m ρ c)).trans (W1_arg7 m ρ c)
theorem W3_arg7 (c : Dev nD) : W3 m ρ c (Proc.devRef .tc main_arg7) = m ((c : Thread nD τ).loc main_arg7) :=
  (keep11_arg7 (W2 m ρ c)).trans (W2_arg7 m ρ c)
theorem W1_arg8 (c : Dev nD) : W1 m ρ c (Proc.devRef .tc main_arg8) = m ((c : Thread nD τ).loc main_arg8) :=
  (W1_of_ne m ρ c main_arg8 (by decide)).trans rfl
theorem W2_arg8 (c : Dev nD) : W2 m ρ c (Proc.devRef .tc main_arg8) = m ((c : Thread nD τ).loc main_arg8) :=
  (keep1_arg8 (W1 m ρ c)).trans (W1_arg8 m ρ c)
theorem W3_arg8 (c : Dev nD) : W3 m ρ c (Proc.devRef .tc main_arg8) = m ((c : Thread nD τ).loc main_arg8) :=
  (keep11_arg8 (W2 m ρ c)).trans (W2_arg8 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W5_arg2 (c : Dev nD) : W5 m ρ c (Proc.devRef .tc main_arg2) = m ((c : Thread nD τ).loc main_arg2) :=
  (keep2_arg2 (W4 m ρ c)).trans (W4_arg2 m ρ c)
theorem W5_arg3 (c : Dev nD) : W5 m ρ c (Proc.devRef .tc main_arg3) = m ((c : Thread nD τ).loc main_arg3) :=
  (keep2_arg3 (W4 m ρ c)).trans (W4_arg3 m ρ c)
theorem W5_arg7 (c : Dev nD) : W5 m ρ c (Proc.devRef .tc main_arg7) = m ((c : Thread nD τ).loc main_arg7) :=
  (keep2_arg7 (W4 m ρ c)).trans (W4_arg7 m ρ c)
theorem W6_arg7 (c : Dev nD) : W6 m ρ c (Proc.devRef .tc main_arg7) = m ((c : Thread nD τ).loc main_arg7) :=
  (keep21_arg7 (W5 m ρ c)).trans (W5_arg7 m ρ c)

/-! ## The computed arrays, boundary by boundary -/

/-- The first region leaves the first dense product of the launch's features and weights. -/
theorem W1_v0 (c : Dev nD) :
    W1 m ρ c (Proc.devRef .tc main_v0)
      = Cert.Spec.dense1 (m ((c : Thread nD τ).loc main_arg0)) (m ((c : Thread nD τ).loc main_arg4)) :=
  (W1_arr m ρ c 2).trans (Cert.KernelIdeal.Region0.final (V0 m ρ) c)

/-- The first two stretches leave the aggregation, over the guarded gather, of the first dense product. -/
theorem W3_v7 (c : Dev nD) :
    W3 m ρ c (Proc.devRef .tc main_v7)
      = aggT40 (Cert.Spec.dense1 (m ((c : Thread nD τ).loc main_arg0)) (m ((c : Thread nD τ).loc main_arg4)))
          (m ((c : Thread nD τ).loc main_arg1)) (m ((c : Thread nD τ).loc main_arg2)) (m ((c : Thread nD τ).loc main_arg3)) := by
  have h2 : W2 m ρ c (Proc.devRef .tc main_v1)
      = take40 (Cert.Spec.dense1 (m ((c : Thread nD τ).loc main_arg0)) (m ((c : Thread nD τ).loc main_arg4))) (m ((c : Thread nD τ).loc main_arg1)) := by
    rw [← W1_v0 m ρ c, ← W1_arg1 m ρ c]
    exact take40_stretch (W1 m ρ c)
  rw [← W2_arg2 m ρ c, ← W2_arg3 m ρ c]
  unfold aggT40
  rw [← h2]
  exact scat40_stretch (W2 m ρ c)

/-- The second region leaves the second dense product of the hidden layer. -/
theorem W4_v8 (c : Dev nD) :
    W4 m ρ c (Proc.devRef .tc main_v8)
      = Cert.Spec.dense2 (Cert.Spec.hidden (W3 m ρ c (Proc.devRef .tc main_v7)) (m ((c : Thread nD τ).loc main_arg5)) (m ((c : Thread nD τ).loc main_arg8))) (m ((c : Thread nD τ).loc main_arg6)) := by
  rw [← W3_arg5 m ρ c, ← W3_arg8 m ρ c, ← W3_arg6 m ρ c]
  exact (W4_arr m ρ c 4).trans (Cert.KernelIdeal.Region1.final (V3 m ρ) c)

/-- The next two stretches leave the aggregation, over the guarded gather, of the second region's output. -/
theorem W6_v15 (c : Dev nD) :
    W6 m ρ c (Proc.devRef .tc main_v15)
      = aggT7 (W4 m ρ c (Proc.devRef .tc main_v8))
          (m ((c : Thread nD τ).loc main_arg1)) (m ((c : Thread nD τ).loc main_arg2)) (m ((c : Thread nD τ).loc main_arg3)) := by
  have h5 : W5 m ρ c (Proc.devRef .tc main_v9)
      = take7 (W4 m ρ c (Proc.devRef .tc main_v8)) (m ((c : Thread nD τ).loc main_arg1)) := by
    rw [← W4_arg1 m ρ c]
    exact take7_stretch (W4 m ρ c)
  rw [← W5_arg2 m ρ c, ← W5_arg3 m ρ c]
  unfold aggT7
  rw [← h5]
  exact scat7_stretch (W5 m ρ c)

/-- The third region leaves the row-wise log-softmax of the biased second aggregate. -/
theorem W7_v16 (c : Dev nD) :
    W7 m ρ c (Proc.devRef .tc main_v16)
      = Cert.Spec.lsm (W6 m ρ c (Proc.devRef .tc main_v15)) (m ((c : Thread nD τ).loc main_arg7)) := by
  rw [← W6_arg7 m ρ c]
  exact (W7_arr m ρ c 2).trans (Cert.KernelIdeal.Region2.final (V6 m ρ) c)

/-! ## The result -/

/-- With every source index a valid row index, the kernel program's result array is the specification's stages
    composed around the plain aggregation. -/
theorem result (c : Dev nD) (h : SrcInRange (m ((c : Thread nD τ).loc main_arg1))) :
    W7 m ρ c (Proc.devRef .tc main_v16)
      = Cert.Spec.lsm (agg7 (Cert.Spec.dense2 (Cert.Spec.hidden (agg40 (Cert.Spec.dense1 (m ((c : Thread nD τ).loc main_arg0)) (m ((c : Thread nD τ).loc main_arg4))) (m ((c : Thread nD τ).loc main_arg1)) (m ((c : Thread nD τ).loc main_arg2)) (m ((c : Thread nD τ).loc main_arg3))) (m ((c : Thread nD τ).loc main_arg5)) (m ((c : Thread nD τ).loc main_arg8))) (m ((c : Thread nD τ).loc main_arg6))) (m ((c : Thread nD τ).loc main_arg1)) (m ((c : Thread nD τ).loc main_arg2)) (m ((c : Thread nD τ).loc main_arg3))) (m ((c : Thread nD τ).loc main_arg7)) := by
  rw [W7_v16, W6_v15, W4_v8, W3_v7]
  unfold aggT7 aggT40 agg7 agg40
  rw [Cert.KernelIdeal.Take.take40_eq _ _ h, Cert.KernelIdeal.Take.take7_eq _ _ h]

end Cert.KernelIdeal.ValueChain

end
-- ==== Proof.SrcRange.lean ====
/-
  The precondition gives the source indices' range.

  The stated precondition is a conjunction of "every entry is finite" for each float argument and, last, "every
  edge's source index s satisfies -100000 ≤ s < 100000" (an and-reduce over the edges of the two signed
  comparisons). When the conjunction is 1 its last conjunct is 1, an and-reduce that is 1 has every element 1, and
  the two comparisons read as the two inequalities on the signed value.
-/
import proofs.«415233_j2680059592878_3_alg».proof.Defs
import proofs.«415233_j2680059592878_3_alg».proof.Proof.Gen.Pre_finite_inputs
import proofs.«415233_j2680059592878_3_alg».proof.Proof.KernelTerms
import Idealize.ShloMosaic.Lib.StableHlo.Predicate
import Idealize.ShloMosaic.Lib.ReduceAll
import Idealize.ShloMosaic.Lib.ValueIdx

noncomputable section

namespace Cert.KernelIdeal.SrcRange

open Idealize.ShloMosaic Idealize.SL.Sem Idealize.ShloMosaic.ValueIdx

/-- Under the precondition every edge's source index, on every device, is at least -100000 and below 100000. -/
theorem src_in_range (m : (ℓ : Loc Cert.KernelIdeal.nD Cert.KernelIdeal.τ Cert.KernelIdeal.sig) → Buf (Elt Ideal) ℓ)
    (h : Cert.Pre_KernelIdeal m) (c : Dev Cert.KernelIdeal.nD) :
    Cert.KernelIdeal.Terms.SrcInRange (m ((c.tc : Thread Cert.KernelIdeal.nD Cert.KernelIdeal.τ).loc Cert.KernelIdeal.main_arg1)) := by
  -- the precondition at this device, read at the scalar's one index
  have h0 := congrFun (h c) ValueIdx.ix0
  dsimp only [Cert.Pre_finite_inputs.fn, Cert.Pre_finite_inputs.fn_part1, Cert.Pre_finite_inputs.fn_part2] at h0
  -- the outermost conjunction: its last conjunct, the and-reduce over the edges, is 1
  have h1 := (IntOp.andi_eq_one.1 h0).2
  intro e
  -- the scalar shape has one index, so every edge reduces into it:
  -- hence the conjunction of the two comparisons is 1 at edge e
  haveI : Subsingleton Cert.Pre_finite_inputs.S_.Idx := ⟨fun a b => funext fun d => d.elim0⟩
  have h2 := Host.reduce_andi_all _ _ _ _ _ h1 e
  obtain ⟨hge, hlt⟩ := IntOp.andi_eq_one.1 h2
  -- each comparison is the inequality of signed values; a broadcast scalar reads the literal at every edge
  have hge' : (4294867296#32 : BitVec 32).toInt ≤ BitVec.toInt (m ((c.tc : Thread Cert.KernelIdeal.nD Cert.KernelIdeal.τ).loc Cert.KernelIdeal.main_arg1) e) :=
    IntOp.cmpi_sge.1 hge
  have hlt' : BitVec.toInt (m ((c.tc : Thread Cert.KernelIdeal.nD Cert.KernelIdeal.τ).loc Cert.KernelIdeal.main_arg1) e) < (100000#32 : BitVec 32).toInt :=
    IntOp.cmpi_slt.1 hlt
  -- the two literals as signed values
  have k1 : (4294867296#32 : BitVec 32).toInt = -100000 := by decide
  have k2 : (100000#32 : BitVec 32).toInt = 100000 := by decide
  rw [k1] at hge'
  rw [k2] at hlt'
  exact ⟨hge', hlt'⟩

end Cert.KernelIdeal.SrcRange

end
-- ==== Proof.lean ====
/-
  A two-layer graph convolution with dropout and a log-softmax head, as a Pallas TPU program of three kernels
  against its jnp reference, over the extended reals.

  Both programs compute, for 100000 nodes with 1433 features, 3200000 weighted edges, 40 hidden units and 7 classes:
  the dense product of the features with the first weights; the edge aggregation (one row gathered per edge by the
  edge's source index, scaled by the edge's weight, added into the edge's destination row); bias, rectifier and the
  dropout keep factor (2 where the uniform draw exceeds one half, 0 elsewhere); the dense product with the second
  weights; the same aggregation; bias and the row-wise log-softmax.

  The kernel program does the two dense products and the log-softmax in kernels over blocks of 2000 rows; the fifty
  blocks tile the rows, each block's result is the corresponding rows of one whole-array function, and the casts to
  bf16 before the products are the identity on the extended reals, so each kernel's output array is the
  specification's stage of the arrays it is entered with. The reference's stages are the same functions: a
  dot_general's entry is the sum over its contracted axis, dividing the comparison bit by one half is multiplying it
  by 2, and the maximum with minus infinity of a fold of maxima from minus infinity is that fold.

  The two programs differ in one place: the kernel program's gather replaces a row by a fill value where the
  wrapped source index is not a row index, the reference's gather does not. The precondition states that every
  source index s satisfies -100000 ≤ s < 100000, the domain on which the reference's own indexing is in range; there
  the wrapped index lies in 0 … 99999, the kernel program's guard holds on every edge, and its gather is the
  reference's. The aggregation itself is one function of its operands in both programs and is never opened.
-/
import proofs.«415233_j2680059592878_3_alg».proof.Defs
import proofs.«415233_j2680059592878_3_alg».proof.Proof.Gen.Kernel
import proofs.«415233_j2680059592878_3_alg».proof.Proof.Gen.Kernel.Skeleton
import proofs.«415233_j2680059592878_3_alg».proof.Proof.Gen.Kernel.Launch
import proofs.«415233_j2680059592878_3_alg».proof.Proof.Gen.Kernel.Points
import proofs.«415233_j2680059592878_3_alg».proof.Proof.Gen.Kernel.Frame
import proofs.«415233_j2680059592878_3_alg».proof.Proof.Gen.KernelIdeal
import proofs.«415233_j2680059592878_3_alg».proof.Proof.Gen.KernelIdeal.Skeleton
import proofs.«415233_j2680059592878_3_alg».proof.Proof.Gen.KernelIdeal.Launch
import proofs.«415233_j2680059592878_3_alg».proof.Proof.Gen.KernelIdeal.Points
import proofs.«415233_j2680059592878_3_alg».proof.Proof.Gen.KernelIdeal.Frame
import proofs.«415233_j2680059592878_3_alg».proof.Proof.Gen.ReferenceIdeal
import proofs.«415233_j2680059592878_3_alg».proof.Proof.Gen.Pre_finite_inputs
import proofs.«415233_j2680059592878_3_alg».proof.Proof.RefRun
import proofs.«415233_j2680059592878_3_alg».proof.Proof.RefStages
import proofs.«415233_j2680059592878_3_alg».proof.Proof.KernelRun
import proofs.«415233_j2680059592878_3_alg».proof.Proof.KernelValue
import proofs.«415233_j2680059592878_3_alg».proof.Proof.SrcRange
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run, with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote nothing in this program: nothing to preserve. -/
theorem preserves : Cert.preserves_Kernel_KernelIdeal := trivial

/-- The 40-column aggregation is one function in the two programs. -/
theorem agg40_same (s : FVec Ideal Cert.KernelIdeal.S100000x40 .f32) (src dst : IVec Cert.KernelIdeal.S3200000 32)
    (ew : FVec Ideal Cert.KernelIdeal.S3200000 .f32) :
    Cert.ReferenceIdeal.Stages.agg40 s src dst ew = Cert.KernelIdeal.Terms.agg40 s src dst ew := rfl

/-- The 7-column aggregation is one function in the two programs. -/
theorem agg7_same (s : FVec Ideal Cert.KernelIdeal.S100000x7 .f32) (src dst : IVec Cert.KernelIdeal.S3200000 32)
    (ew : FVec Ideal Cert.KernelIdeal.S3200000 .f32) :
    Cert.ReferenceIdeal.Stages.agg7 s src dst ew = Cert.KernelIdeal.Terms.agg7 s src dst ew := rfl

/-- From memories that agree on the arguments both idealized programs run and end with the same result array: the
    specification's stages composed around the aggregation, of the arguments. -/
theorem algebraic : Cert.algebraic_KernelIdeal_ReferenceIdeal := by
  intro m ρ m' ρ' hpre hagree
  refine ⟨fun c => Cert.KernelIdeal.Gen.W7 m ρ c (Proc.devRef .tc Cert.KernelIdeal.main_v16),
    Cert.KernelIdeal.GenV.run_value m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.Stages.res_eq]
  show _ = Cert.KernelIdeal.Gen.W7 m ρ c (Proc.devRef .tc Cert.KernelIdeal.main_v16)
  rw [Cert.KernelIdeal.ValueChain.result m ρ c (Cert.KernelIdeal.SrcRange.src_in_range m hpre c)]
  obtain ⟨a0, a1, a2, a3, a4, a5, a6, a7, a8⟩ := hagree c
  rw [a0, a1, a2, a3, a4, a5, a6, a7, a8, agg40_same, agg7_same]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
